-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x5120 : Shape := ⟨2, ![2048, 5120]⟩
abbrev S5120 : Shape := ⟨1, ![5120]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x5120 : S_.BroadcastsInDim S2048x5120 (![] : Fin 0 → Fin S2048x5120.rank)
  reducesTo_S2048x5120_S_d0_1 : S2048x5120.ReducesTo [0, 1] S_
  bcast_S_S5120 : S_.BroadcastsInDim S5120 (![] : Fin 0 → Fin S5120.rank)
  reducesTo_S5120_S_d0 : S5120.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S5120 .f32) (main_arg5 : FVec F S1024 .f32) (main_arg6 : FVec F S1024 .f32) (main_arg7 : FVec F S1024 .f32) (main_v13 : IVec S_ 1) (main_v16 : IVec S2048x5120 1) : IVec S_ 1 :=
  let main_c_5 : IVec S_ 1 := constantI S_ 1 1#1
  let main_v17 : IVec S_ 1 := (fun x v => Host.reduce IntOp.andi x v reducesTo_S2048x5120_S_d0_1 h_S_) main_v16 main_c_5
  let main_v18 : IVec S_ 1 := andi main_v13 main_v17
  let main_v19 : FVec F S5120 .f32 := Host.absf main_arg4
  let main_cst_6 : FVec F S_ .f32 := constant S_ .f32 0x7F800000#32
  let main_v20 : FVec F S5120 .f32 := broadcastInDim S5120 ![] bcast_S_S5120 main_cst_6
  let main_v21 : IVec S5120 1 := cmpf .olt main_v19 main_v20
  let main_c_7 : IVec S_ 1 := constantI S_ 1 1#1
  let main_v22 : IVec S_ 1 := (fun x v => Host.reduce IntOp.andi x v reducesTo_S5120_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x1024 .f32) (main_arg2 : FVec F S16384x1024 .f32) (main_arg3 : FVec F S2048x5120 .f32) (main_arg4 : FVec F S5120 .f32) (main_arg5 : FVec F S1024 .f32) (main_arg6 : FVec F S1024 .f32) (main_arg7 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x5120 .f32 := Host.absf main_arg3
  let main_cst_4 : FVec F S_ .f32 := constant S_ .f32 0x7F800000#32
  let main_v15 : FVec F S2048x5120 .f32 := broadcastInDim S2048x5120 ![] bcast_S_S2048x5120 main_cst_4
  let main_v16 : IVec S2048x5120 1 := cmpf .olt main_v14 main_v15
  fn_part1 (F := F) main_arg4 main_arg5 main_arg6 main_arg7 main_v13 main_v16
-- ==== Kernel.lean ====
abbrev S16384x1024 : Shape := ⟨2, ![16384, 1024]⟩
abbrev S2048x5120 : Shape := ⟨2, ![2048, 5120]⟩
abbrev S5120 : Shape := ⟨1, ![5120]⟩
abbrev S1024 : Shape := ⟨1, ![1024]⟩
abbrev S1x5120 : Shape := ⟨2, ![1, 5120]⟩
abbrev S1x1024 : Shape := ⟨2, ![1, 1024]⟩
abbrev S128x1024 : Shape := ⟨2, ![128, 1024]⟩
abbrev S1024x5120 : Shape := ⟨2, ![1024, 5120]⟩
abbrev S128x5120 : Shape := ⟨2, ![128, 5120]⟩
abbrev S128 : Shape := ⟨1, ![128]⟩
abbrev S128x1 : Shape := ⟨2, ![128, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x5120, .f32⟩
  | .hbm, ⟨4, _⟩ => ⟨S5120, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S2048x5120, .bf16⟩
  | .hbm, ⟨9, _⟩ => ⟨S1x5120, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S2048x5120, .bf16⟩
  | .local _ .vmem, ⟨7, _⟩ => ⟨S1x5120, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S5120_S1x5120 : S5120.ShapeCasts S1x5120
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S2048x5120_S1024x5120_0_0 : ∀ a, (![0, 0] : Fin 2 → Nat) a + S1024x5120.size a ≤ S2048x5120.size a
  h_S1024x5120 : 0 < S1024x5120.numel
  shapeCasts_S1024x5120_S1024x5120 : S1024x5120.ShapeCasts S1024x5120
  inb_S2048x5120_S1024x5120_1024_0 : ∀ a, (![1024, 0] : Fin 2 → Nat) a + S1024x5120.size a ≤ S2048x5120.size a
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S128x5120 : S1x5120.Broadcasts S128x5120
  slices_S128x5120_o0_0_S128x1024 : S128x5120.Slices ![0, 0] S128x1024
  slices_S128x5120_o0_1024_S128x1024 : S128x5120.Slices ![0, 1024] S128x1024
  slices_S128x5120_o0_2048_S128x1024 : S128x5120.Slices ![0, 2048] S128x1024
  slices_S128x5120_o0_3072_S128x1024 : S128x5120.Slices ![0, 3072] S128x1024
  slices_S128x5120_o0_4096_S128x1024 : S128x5120.Slices ![0, 4096] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  dot_S128x1024_S1024x5120_S128x5120_1_0_0_1_n_n_wf : DotDims.WF S128x1024 S1024x5120 S128x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x5120.size a ≤ S2048x5120.size a
  hwx0_3 : ∀ i : grid0.Coords, EltTy.bits .bf16 = 32 ∨ (Rect.block (s := S2048x5120) S2048x5120.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5120.size a ≤ S1x5120.size a
  hwx0_4 : ∀ i : grid0.Coords, EltTy.bits .f32 = 32 ∨ (Rect.block (s := S1x5120) S1x5120.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S16384x1024.size a
  hwx0_9 : ∀ i : grid0.Coords, EltTy.bits .f32 = 32 ∨ (Rect.block (s := S16384x1024) S128x1024.size (cc0_transform_9 i) (hinb0_9 i)).WholeWords (EltTy.packing .f32)

variable [Facts₀]

def dot_S128x1024_S1024x5120_S128x5120_1_0_0_1_n_n : DotDims S128x1024 S1024x5120 S128x5120 where
  lhsContracting := [1]
  rhsContracting := [0]
  lhsNonContracting := [0]
  rhsNonContracting := [1]
  lhsBatch := []
  rhsBatch := []
  wf := dot_S128x1024_S1024x5120_S128x5120_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x5120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x5120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x5120 : Shape := ⟨2, ![2048, 5120]⟩
abbrev S5120 : Shape := ⟨1, ![5120]⟩
abbrev S1024 : Shape := ⟨1, ![1024]⟩
abbrev S16384x2048 : Shape := ⟨2, ![16384, 2048]⟩
abbrev S16384x5120 : Shape := ⟨2, ![16384, 5120]⟩
abbrev S1x5120 : Shape := ⟨2, ![1, 5120]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x5120, .f32⟩
  | .hbm, ⟨4, _⟩ => ⟨S5120, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16384x2048, .f32⟩
  | .hbm, ⟨9, _⟩ => ⟨S16384x5120, .f32⟩
  | .hbm, ⟨10, _⟩ => ⟨S1x5120, .f32⟩
  | .hbm, ⟨11, _⟩ => ⟨S16384x5120, .f32⟩
  | .hbm, ⟨12, _⟩ => ⟨S16384x5120, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .i32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S16384x1, .f32⟩
  | .hbm, ⟨104, _⟩ => ⟨S16384x1, .f32⟩
  | .hbm, ⟨105, _⟩ => ⟨S16384x1, .f32⟩
  | .hbm, ⟨106, _⟩ => ⟨S16384x1024, .f32⟩
  | .hbm, ⟨107, _⟩ => ⟨S16384x1024, .f32⟩
  | .hbm, ⟨108, _⟩ => ⟨S1x1024, .f32⟩
  | .hbm, ⟨109, _⟩ => ⟨S16384x1024, .f32⟩
  | .hbm, ⟨110, _⟩ => ⟨S16384x1024, .f32⟩
  | .hbm, ⟨111, _⟩ => ⟨S1x1024, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S_, .f32⟩
  | .hbm, ⟨117, _⟩ => ⟨S16384x1024, .f32⟩
  | .hbm, ⟨118, _⟩ => ⟨S16384x1024, .f32⟩
  | .hbm, ⟨119, _⟩ => ⟨S_, .f32⟩
  | .hbm, ⟨120, _⟩ => ⟨S16384x1024, .f32⟩
  | .hbm, ⟨121, _⟩ => ⟨S16384x1024, .f32⟩
  | .hbm, ⟨122, _⟩ => ⟨S16384x1024, .f32⟩
  | .hbm, ⟨123, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_cst_3 : Ref sig .tc := ⟨.hbm, 94, rfl⟩
abbrev main_call0_v13 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_12 : Ref sig .tc := ⟨.hbm, 116, rfl⟩
abbrev main_v72 : Ref sig .tc := ⟨.hbm, 117, rfl⟩
abbrev main_v73 : Ref sig .tc := ⟨.hbm, 118, rfl⟩
abbrev main_cst_13 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S5120_S1x5120_1 : S5120.BroadcastsInDim S1x5120 (![1] : Fin 1 → Fin S1x5120.rank)
  bcast_S1x5120_S16384x5120_0_1 : S1x5120.BroadcastsInDim S16384x5120 (![0, 1] : Fin 2 → Fin S16384x5120.rank)
  slices_S16384x5120_S16384x1024_0_0 : S16384x5120.Slices ![0, 0] S16384x1024
  slices_S16384x5120_S16384x1024_0_1024 : S16384x5120.Slices ![0, 1024] S16384x1024
  slices_S16384x5120_S16384x1024_0_2048 : S16384x5120.Slices ![0, 2048] S16384x1024
  slices_S16384x5120_S16384x1024_0_3072 : S16384x5120.Slices ![0, 3072] S16384x1024
  slices_S16384x5120_S16384x1024_0_4096 : S16384x5120.Slices ![0, 4096] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S1024 : S_.BroadcastsInDim S1024 (![] : Fin 0 → Fin S1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  dot_S16384x2048_S2048x5120_S16384x5120_1_0_0_1_n_n_wf : DotDims.WF S16384x2048 S2048x5120 S16384x5120 [1] [0] [0] [1] [] []

variable [Facts₀]

def dot_S16384x2048_S2048x5120_S16384x5120_1_0_0_1_n_n : DotDims S16384x2048 S2048x5120 S16384x5120 where
  lhsContracting := [1]
  rhsContracting := [0]
  lhsNonContracting := [0]
  rhsNonContracting := [1]
  lhsBatch := []
  rhsBatch := []
  wf := dot_S16384x2048_S2048x5120_S16384x5120_1_0_0_1_n_n_wf

class Facts : Prop extends Facts₀ where

variable [Facts]
-- ==== Proof.Spec.lean ====
/-
  The recurrent cell with a normalised output gate, as mathematics over the extended reals, one batch row at a time.

  A row of the batch has an input row x_r and a previous hidden row h_r (1024 entries each) and a previous cell row
  c_r. The fused weight has 2048 rows: its upper 1024 rows multiply x_r, its lower 1024 rows multiply h_r; with the
  bias this gives 5120 pre-activations, five groups of 1024 columns: forget, input, output, candidate, mix.
    cNew q = mix_q · ((forget_q · c_q + input_q · tanh(candidate_q)) · ret_q + (1 − ret_q) · c_q) + (1 − mix_q) · c_q
  where forget, input, mix are the logistic function of their pre-activations. The output gates o_q = logistic(output_q)
  of the row are normalised over the row (mean and mean squared deviation over its 1024 entries, the small constant
  added to the latter, reciprocal square root), scaled by gamma, shifted by beta, passed through the logistic
  function, and multiplied by tanh(cNew q):  hNew q.
  Every operation is the extended reals' own; the literals 1, 1024 and the small constant are the numbers their
  binary words denote.
-/
import Idealize.ShloMosaic.PureOps.Ideal
import Idealize.ShloMosaic.PureOps.Ideal.Laws
import Idealize.ShloMosaic.Lib.ValueIdx

noncomputable section

open scoped BigOperators

namespace Cert.Cell

open Idealize.ShloMosaic Idealize.ShloMosaic.ValueIdx

/-- The number one, as its binary word denotes it. -/
abbrev one : EReal := Ideal.ofBits .f32 0x3F800000#32
/-- The row length 1024, as its binary word denotes it. -/
abbrev width : EReal := Ideal.ofBits .f32 0x44800000#32
/-- The small constant added to the mean squared deviation. -/
abbrev eps : EReal := Ideal.ofBits .f32 0x3727C5AC#32

/-- Column q of the forget group among the 5120 fused columns. -/
def colF (q : Fin 1024) : Fin 5120 := ⟨q.val, by have := q.isLt; omega⟩
/-- Column q of the input group. -/
def colI (q : Fin 1024) : Fin 5120 := ⟨q.val + 1024, by have := q.isLt; omega⟩
/-- Column q of the output group. -/
def colO (q : Fin 1024) : Fin 5120 := ⟨q.val + 2048, by have := q.isLt; omega⟩
/-- Column q of the candidate group. -/
def colC (q : Fin 1024) : Fin 5120 := ⟨q.val + 3072, by have := q.isLt; omega⟩
/-- Column q of the mix group. -/
def colM (q : Fin 1024) : Fin 5120 := ⟨q.val + 4096, by have := q.isLt; omega⟩

/-- Row k of the weight's upper half (the rows that multiply the input). -/
def lo (k : Fin 1024) : Fin 2048 := ⟨k.val, by have := k.isLt; omega⟩
/-- Row k of the weight's lower half (the rows that multiply the previous hidden state). -/
def hi (k : Fin 1024) : Fin 2048 := ⟨k.val + 1024, by have := k.isLt; omega⟩

/-- One row's 5120 pre-activations: x_r times the upper weight rows, plus h_r times the lower ones, plus the bias. -/
def gateRow (xr hr : Fin 1024 → EReal) (wlo whi : Fin 1024 → Fin 5120 → EReal) (b : Fin 5120 → EReal)
    (j : Fin 5120) : EReal :=
  ((∑ k : Fin 1024, xr k * wlo k j) + (∑ k : Fin 1024, hr k * whi k j)) + b j

/-- The row's output gates. -/
def oGate (g : Fin 5120 → EReal) (q : Fin 1024) : EReal := Ideal.logistic (g (colO q))

/-- The new cell state at column q. -/
def cNew (g : Fin 5120 → EReal) (cr ret : Fin 1024 → EReal) (q : Fin 1024) : EReal :=
  Ideal.logistic (g (colM q))
      * ((Ideal.logistic (g (colF q)) * cr q + Ideal.logistic (g (colI q)) * Ideal.tanh (g (colC q))) * ret q
          + (one - ret q) * cr q)
    + (one - Ideal.logistic (g (colM q))) * cr q

/-- The mean of a row of 1024 entries. -/
def rowMean (o : Fin 1024 → EReal) : EReal := Ideal.div (∑ q : Fin 1024, o q) width

/-- The mean squared deviation of a row from its mean. -/
def rowVar (o : Fin 1024 → EReal) : EReal :=
  Ideal.div (∑ q : Fin 1024, (o q - rowMean o) * (o q - rowMean o)) width

/-- The new hidden state at column q. -/
def hNew (g : Fin 5120 → EReal) (cr ret gam bet : Fin 1024 → EReal) (q : Fin 1024) : EReal :=
  Ideal.logistic ((oGate g q - rowMean (oGate g)) * Ideal.rsqrt (rowVar (oGate g) + eps) * gam q + bet q)
    * Ideal.tanh (cNew g cr ret q)

/-! ## Over the whole arrays -/

/-- An R × C array of extended reals. -/
abbrev Mat (R C : Nat) : Type := (⟨2, ![R, C]⟩ : Shape).Idx → EReal
/-- A vector of N extended reals. -/
abbrev Vc (N : Nat) : Type := (⟨1, ![N]⟩ : Shape).Idx → EReal

/-- Batch row r's pre-activations, from the whole arrays. -/
def gateOf (x h : Mat 16384 1024) (W : Mat 2048 5120) (b : Vc 5120) (r : Fin 16384) : Fin 5120 → EReal :=
  gateRow (fun k => x (ix2 r k)) (fun k => h (ix2 r k)) (fun k j => W (ix2 (lo k) j)) (fun k j => W (ix2 (hi k) j))
    (fun j => b (ix1 j))

/-- The new cell state, the whole 16384 × 1024 array. -/
def cOut (x h c : Mat 16384 1024) (W : Mat 2048 5120) (b : Vc 5120) (ret : Vc 1024) : Mat 16384 1024 := fun i =>
  cNew (gateOf x h W b (i 0)) (fun q => c (ix2 (i 0) q)) (fun q => ret (ix1 q)) (i 1)

/-- The new hidden state, the whole 16384 × 1024 array. -/
def hOut (x h c : Mat 16384 1024) (W : Mat 2048 5120) (b : Vc 5120) (gam bet ret : Vc 1024) : Mat 16384 1024 := fun i =>
  hNew (gateOf x h W b (i 0)) (fun q => c (ix2 (i 0) q)) (fun q => ret (ix1 q)) (fun q => gam (ix1 q))
    (fun q => bet (ix1 q)) (i 1)

theorem cOut_at (x h c : Mat 16384 1024) (W : Mat 2048 5120) (b : Vc 5120) (ret : Vc 1024) (r : Fin 16384) (q : Fin 1024) :
    cOut x h c W b ret (ix2 r q) = cNew (gateOf x h W b r) (fun q => c (ix2 r q)) (fun q => ret (ix1 q)) q := rfl

theorem hOut_at (x h c : Mat 16384 1024) (W : Mat 2048 5120) (b : Vc 5120) (gam bet ret : Vc 1024) (r : Fin 16384)
    (q : Fin 1024) :
    hOut x h c W b gam bet ret (ix2 r q)
      = hNew (gateOf x h W b r) (fun q => c (ix2 r q)) (fun q => ret (ix1 q)) (fun q => gam (ix1 q))
          (fun q => bet (ix1 q)) q := rfl

/-- A sum over 2048 indices is the sum over the first 1024 plus the sum over the last 1024. -/
theorem sum_split (f : Fin 2048 → EReal) : (∑ k : Fin 2048, f k) = (∑ k : Fin 1024, f (lo k)) + ∑ k : Fin 1024, f (hi k) := by
  have h := Fin.sum_univ_add (a := 1024) (b := 1024) (f : Fin (1024 + 1024) → EReal)
  rw [h]
  refine congrArg₂ (· + ·) (Finset.sum_congr rfl fun k _ => congrArg f (Fin.ext ?_))
    (Finset.sum_congr rfl fun k _ => congrArg f (Fin.ext ?_))
  · rfl
  · show 1024 + k.val = k.val + 1024
    omega

end Cert.Cell

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KernelBlock.lean ====
/-
  One grid point's two output blocks, read at row p and column q of the block, are the cell's new hidden state and
  new cell state of that row: the block's index-by-index form (pre-activations kept whole, the two row sums kept
  whole) opened — the two matrix products into a zero accumulator as sums over the shared index, the bias row spread
  over the rows, the five column groups as offsets, the row sums as sums over the row.
-/
import proofs.«178596_j82867099009371_1_alg».proof.Proof.Gen.KernelIdeal.Value
import proofs.«178596_j82867099009371_1_alg».proof.Proof.Spec
import proofs.«178596_j82867099009371_1_alg».proof.Proof.LibDot
import proofs.«178596_j82867099009371_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The pre-activations of block row p from the block's loads: the input block, the previous hidden block, the
    weight's two halves and the bias row. -/
abbrev gateBlk (P0 P1 : Vec Ideal S128x1024 .f32) (P2 P3 : Vec Ideal S1024x5120 .bf16) (P4 : Vec Ideal S1x5120 .f32)
    (p : Fin 128) : Fin 5120 → EReal :=
  Cert.Cell.gateRow (fun k => P0 (ix2 p k)) (fun k => P1 (ix2 p k)) (fun k j => P2 (ix2 k j)) (fun k j => P3 (ix2 k j))
    (fun j => P4 (ix2 (0 : Fin 1) j))

/-! ## The pre-activations at an entry -/

/-- The product into the zero accumulator at entry (p, j): the sum over the shared index k of x(p, k) · w(k, j). -/
theorem dot_at {φ₁ φ₂ : FTy} (x : FVec Ideal S128x1024 φ₁) (w : FVec Ideal S1024x5120 φ₂) (p : Fin 128) (j : Fin 5120) :
    matmul dot_S128x1024_S1024x5120_S128x5120_1_0_0_1_n_n none x w (constant S128x5120 .f32 0x00000000#32) (ix2 p j)
      = ∑ k : Fin 1024, x (ix2 p k) * w (ix2 k j) :=
  Cert.LibDot.matmul_zero_at dot_S128x1024_S1024x5120_S128x5120_1_0_0_1_n_n rfl rfl rfl rfl rfl rfl none x w p j

/-- The block's pre-activations at (p, j): the two products (the change of float format is the identity on the
    extended reals, and so is the cast to the same shape) and the bias row read at column j. -/
theorem gate_at (P0 P1 : Vec Ideal S128x1024 .f32) (P2 P3 : Vec Ideal S1024x5120 .bf16) (P4 : Vec Ideal S1x5120 .f32)
    (p : Fin 128) (j : Fin 5120) :
    k0_pay3 (F := Ideal) P0 P1 P2 P3 P4 (ix2 p j) = gateBlk P0 P1 P2 P3 P4 p j := by
  unfold k0_pay3
  refine congrArg₂ (· + ·) (congrArg₂ (· + ·) ?_ ?_) ?_
  · refine (dot_at _ _ p j).trans ?_
    rw [shapeCast_self]
    rfl
  · refine (dot_at _ _ p j).trans ?_
    rw [shapeCast_self]
    rfl
  · rw [shapeCast_self]
    exact broadcastTo_1b_ab_apply P4 _ p j

/-! ## The row sums and the mean column, for any block of 128 rows of 1024 entries -/

/-- The sum along a row: at row p, the sum of the row's 1024 entries. -/
theorem row_sum_at (o : FVec Ideal S128x1024 .f32) (p : Fin 128) :
    multiReduction .add [1] S128 o 0x00000000#32 reduces_S128x1024_S128 (.inl rfl) rfl (ix1 p)
      = ∑ k : Fin 1024, o (ix2 p k) :=
  multiReduction_add_rows_apply o 0x00000000#32 reduces_S128x1024_S128 (.inl rfl) rfl p

/-- The mean column spread over the row: at (p, k) it is row p's sum divided by the row length. -/
theorem mean_at (o : FVec Ideal S128x1024 .f32) (p : Fin 128) (k : Fin 1024) :
    broadcastTo S128x1024 (divf (shapeCast S128x1 (multiReduction .add [1] S128 o 0x00000000#32 reduces_S128x1024_S128 (.inl rfl) rfl) shapeCasts_S128_S128x1) (broadcast S128x1 (Scalar.ofBits .f32 0x44800000#32))) broadcasts_S128x1_S128x1024 (ix2 p k)
      = Ideal.div (∑ k' : Fin 1024, o (ix2 p k')) Cert.Cell.width := by
  refine (broadcastTo_a1_ab_apply _ _ p k).trans ?_
  refine congrArg (fun z => Ideal.div z Cert.Cell.width) ?_
  exact (shapeCast_a_a1_apply _ _ p (0 : Fin 1)).trans (row_sum_at o p)

/-- The sum over row p of the squared deviations from the row's mean. -/
theorem dev_sum_at (o : FVec Ideal S128x1024 .f32) (p : Fin 128) :
    multiReduction .add [1] S128
        (mulf (subf o (broadcastTo S128x1024 (divf (shapeCast S128x1 (multiReduction .add [1] S128 o 0x00000000#32 reduces_S128x1024_S128 (.inl rfl) rfl) shapeCasts_S128_S128x1) (broadcast S128x1 (Scalar.ofBits .f32 0x44800000#32))) broadcasts_S128x1_S128x1024))
          (subf o (broadcastTo S128x1024 (divf (shapeCast S128x1 (multiReduction .add [1] S128 o 0x00000000#32 reduces_S128x1024_S128 (.inl rfl) rfl) shapeCasts_S128_S128x1) (broadcast S128x1 (Scalar.ofBits .f32 0x44800000#32))) broadcasts_S128x1_S128x1024)))
        0x00000000#32 reduces_S128x1024_S128 (.inl rfl) rfl (ix1 p)
      = ∑ k : Fin 1024, (o (ix2 p k) - Ideal.div (∑ k' : Fin 1024, o (ix2 p k')) Cert.Cell.width)
          * (o (ix2 p k) - Ideal.div (∑ k' : Fin 1024, o (ix2 p k')) Cert.Cell.width) := by
  refine (row_sum_at _ p).trans ?_
  refine Finset.sum_congr rfl fun k _ => ?_
  have hm := mean_at o p k
  exact congrArg (fun z => (o (ix2 p k) - z) * (o (ix2 p k) - z)) hm

/-- The block of output gates at (p, k). -/
theorem ogate_at (P0 P1 : Vec Ideal S128x1024 .f32) (P2 P3 : Vec Ideal S1024x5120 .bf16) (P4 : Vec Ideal S1x5120 .f32)
    (p : Fin 128) (k : Fin 1024) :
    logistic (extractStridedSlice S128x1024 ![0, 2048] (k0_pay3 (F := Ideal) P0 P1 P2 P3 P4) slices_S128x5120_o0_2048_S128x1024) (ix2 p k)
      = Cert.Cell.oGate (gateBlk P0 P1 P2 P3 P4 p) k := by
  refine congrArg Ideal.logistic ?_
  exact (slice2_axis1_apply 2048 _ _ p k (Cert.Cell.colO k) (Nat.add_comm _ _)).trans (gate_at P0 P1 P2 P3 P4 p _)

/-! ## Where the cell-state block reads its operands at (p, q) -/

open Cert.KernelIdeal.Value in
theorem i9_0 (p : Fin 128) (q : Fin 1024) : ix9_0 (ix2 p q) = ix2 p (Cert.Cell.colM q) := by
  funext a; match a with | ⟨0, _⟩ => rfl | ⟨1, _⟩ => rfl
open Cert.KernelIdeal.Value in
theorem i9_1 (p : Fin 128) (q : Fin 1024) : ix9_1 (ix2 p q) = ix2 p (Cert.Cell.colF q) := by
  funext a; match a with | ⟨0, _⟩ => rfl | ⟨1, _⟩ => rfl
open Cert.KernelIdeal.Value in
theorem i9_2 (p : Fin 128) (q : Fin 1024) : ix9_2 (ix2 p q) = ix2 p q := by
  funext a; match a with | ⟨0, _⟩ => rfl | ⟨1, _⟩ => rfl
open Cert.KernelIdeal.Value in
theorem i9_3 (p : Fin 128) (q : Fin 1024) : ix9_3 (ix2 p q) = ix2 p (Cert.Cell.colI q) := by
  funext a; match a with | ⟨0, _⟩ => rfl | ⟨1, _⟩ => rfl
open Cert.KernelIdeal.Value in
theorem i9_4 (p : Fin 128) (q : Fin 1024) : ix9_4 (ix2 p q) = ix2 p (Cert.Cell.colC q) := by
  funext a; match a with | ⟨0, _⟩ => rfl | ⟨1, _⟩ => rfl
open Cert.KernelIdeal.Value in
theorem i9_5 (p : Fin 128) (q : Fin 1024) : ix9_5 (ix2 p q) = ix2 (0 : Fin 1) q := by
  funext a; match a with | ⟨0, _⟩ => rfl | ⟨1, _⟩ => rfl
open Cert.KernelIdeal.Value in
theorem i9_6 (p : Fin 128) (q : Fin 1024) : ix9_6 (ix2 p q) = ix2 (0 : Fin 1) q := by
  funext a; match a with | ⟨0, _⟩ => rfl | ⟨1, _⟩ => rfl
open Cert.KernelIdeal.Value in
theorem i9_7 (p : Fin 128) (q : Fin 1024) : ix9_7 (ix2 p q) = ix2 p q := by
  funext a; match a with | ⟨0, _⟩ => rfl | ⟨1, _⟩ => rfl
open Cert.KernelIdeal.Value in
theorem i9_8 (p : Fin 128) (q : Fin 1024) : ix9_8 (ix2 p q) = ix2 p (Cert.Cell.colM q) := by
  funext a; match a with | ⟨0, _⟩ => rfl | ⟨1, _⟩ => rfl
open Cert.KernelIdeal.Value in
theorem i9_9 (p : Fin 128) (q : Fin 1024) : ix9_9 (ix2 p q) = ix2 p q := by
  funext a; match a with | ⟨0, _⟩ => rfl | ⟨1, _⟩ => rfl

/-- The cell-state block at (p, q). -/
theorem E9_at (P0 P1 : Vec Ideal S128x1024 .f32) (P2 P3 : Vec Ideal S1024x5120 .bf16) (P4 : Vec Ideal S1x5120 .f32)
    (P5 : Vec Ideal S128x1024 .f32) (P6 : Vec Ideal S1x1024 .f32) (p : Fin 128) (q : Fin 1024) :
    Cert.KernelIdeal.Value.E9 (F := Ideal) P0 P1 P2 P3 P4 P5 P6 (ix2 p q)
      = Cert.Cell.cNew (gateBlk P0 P1 P2 P3 P4 p) (fun q => P5 (ix2 p q)) (fun q => P6 (ix2 (0 : Fin 1) q)) q := by
  unfold Cert.KernelIdeal.Value.E9
  rw [i9_0 p q, i9_1 p q, i9_2 p q, i9_3 p q, i9_4 p q, i9_5 p q, i9_6 p q, i9_7 p q, i9_8 p q, i9_9 p q]
  simp only [gate_at]
  rfl

/-! ## Where the hidden-state block reads its operands at (p, q) -/

open Cert.KernelIdeal.Value in
theorem i8_0 (p : Fin 128) (q : Fin 1024) : ix8_0 (ix2 p q) = ix2 p (Cert.Cell.colO q) := by
  funext a; match a with | ⟨0, _⟩ => rfl | ⟨1, _⟩ => rfl
open Cert.KernelIdeal.Value in
theorem i8_1 (p : Fin 128) (q : Fin 1024) : ix8_1 (ix2 p q) = ix1 p := by
  funext a; match a with | ⟨0, _⟩ => rfl
open Cert.KernelIdeal.Value in
theorem i8_2 (p : Fin 128) (q : Fin 1024) : ix8_2 (ix2 p q) = ix1 p := by
  funext a; match a with | ⟨0, _⟩ => rfl
open Cert.KernelIdeal.Value in
theorem i8_3 (p : Fin 128) (q : Fin 1024) : ix8_3 (ix2 p q) = ix2 (0 : Fin 1) q := by
  funext a; match a with | ⟨0, _⟩ => rfl | ⟨1, _⟩ => rfl
open Cert.KernelIdeal.Value in
theorem i8_4 (p : Fin 128) (q : Fin 1024) : ix8_4 (ix2 p q) = ix2 (0 : Fin 1) q := by
  funext a; match a with | ⟨0, _⟩ => rfl | ⟨1, _⟩ => rfl
open Cert.KernelIdeal.Value in
theorem i8_5 (p : Fin 128) (q : Fin 1024) : ix8_5 (ix2 p q) = ix2 p (Cert.Cell.colM q) := by
  funext a; match a with | ⟨0, _⟩ => rfl | ⟨1, _⟩ => rfl
open Cert.KernelIdeal.Value in
theorem i8_6 (p : Fin 128) (q : Fin 1024) : ix8_6 (ix2 p q) = ix2 p (Cert.Cell.colF q) := by
  funext a; match a with | ⟨0, _⟩ => rfl | ⟨1, _⟩ => rfl
open Cert.KernelIdeal.Value in
theorem i8_7 (p : Fin 128) (q : Fin 1024) : ix8_7 (ix2 p q) = ix2 p q := by
  funext a; match a with | ⟨0, _⟩ => rfl | ⟨1, _⟩ => rfl
open Cert.KernelIdeal.Value in
theorem i8_8 (p : Fin 128) (q : Fin 1024) : ix8_8 (ix2 p q) = ix2 p (Cert.Cell.colI q) := by
  funext a; match a with | ⟨0, _⟩ => rfl | ⟨1, _⟩ => rfl
open Cert.KernelIdeal.Value in
theorem i8_9 (p : Fin 128) (q : Fin 1024) : ix8_9 (ix2 p q) = ix2 p (Cert.Cell.colC q) := by
  funext a; match a with | ⟨0, _⟩ => rfl | ⟨1, _⟩ => rfl
open Cert.KernelIdeal.Value in
theorem i8_10 (p : Fin 128) (q : Fin 1024) : ix8_10 (ix2 p q) = ix2 (0 : Fin 1) q := by
  funext a; match a with | ⟨0, _⟩ => rfl | ⟨1, _⟩ => rfl
open Cert.KernelIdeal.Value in
theorem i8_11 (p : Fin 128) (q : Fin 1024) : ix8_11 (ix2 p q) = ix2 (0 : Fin 1) q := by
  funext a; match a with | ⟨0, _⟩ => rfl | ⟨1, _⟩ => rfl
open Cert.KernelIdeal.Value in
theorem i8_12 (p : Fin 128) (q : Fin 1024) : ix8_12 (ix2 p q) = ix2 p q := by
  funext a; match a with | ⟨0, _⟩ => rfl | ⟨1, _⟩ => rfl
open Cert.KernelIdeal.Value in
theorem i8_13 (p : Fin 128) (q : Fin 1024) : ix8_13 (ix2 p q) = ix2 p (Cert.Cell.colM q) := by
  funext a; match a with | ⟨0, _⟩ => rfl | ⟨1, _⟩ => rfl
open Cert.KernelIdeal.Value in
theorem i8_14 (p : Fin 128) (q : Fin 1024) : ix8_14 (ix2 p q) = ix2 p q := by
  funext a; match a with | ⟨0, _⟩ => rfl | ⟨1, _⟩ => rfl

/-- The hidden-state block at (p, q). -/
theorem E8_at (P0 P1 : Vec Ideal S128x1024 .f32) (P2 P3 : Vec Ideal S1024x5120 .bf16) (P4 : Vec Ideal S1x5120 .f32)
    (P5 P6 : Vec Ideal S1x1024 .f32) (P7 : Vec Ideal S128x1024 .f32) (P8 : Vec Ideal S1x1024 .f32) (p : Fin 128) (q : Fin 1024) :
    Cert.KernelIdeal.Value.E8 (F := Ideal) P0 P1 P2 P3 P4 P5 P6 P7 P8 (ix2 p q)
      = Cert.Cell.hNew (gateBlk P0 P1 P2 P3 P4 p) (fun q => P7 (ix2 p q)) (fun q => P8 (ix2 (0 : Fin 1) q))
          (fun q => P5 (ix2 (0 : Fin 1) q)) (fun q => P6 (ix2 (0 : Fin 1) q)) q := by
  unfold Cert.KernelIdeal.Value.E8
  rw [i8_0 p q, i8_1 p q, i8_2 p q, i8_3 p q, i8_4 p q, i8_5 p q, i8_6 p q, i8_7 p q, i8_8 p q, i8_9 p q,
    i8_10 p q, i8_11 p q, i8_12 p q, i8_13 p q, i8_14 p q]
  rw [dev_sum_at, row_sum_at]
  simp only [ogate_at, gate_at]
  rfl

end Cert.KernelIdeal.Block

end
-- ==== Proof.KernelArray.lean ====
/-
  From blocks to arrays. Grid point t handles batch rows 128·t … 128·t + 127: it reads those rows of the input, the
  previous hidden state and the previous cell state, the whole weight (as the host converted it, which over the
  extended reals is the weight itself), and the bias, gamma, beta and retention vectors (as the host reshaped them
  to one-row matrices), and writes those rows of the two outputs. The 128 points' blocks tile the 16384 rows, so
  after the run each output array is the cell's function of the argument arrays, index by index.
-/
import proofs.«178596_j82867099009371_1_alg».proof.Proof.Gen.KernelIdeal.Value
import proofs.«178596_j82867099009371_1_alg».proof.Proof.Spec
import proofs.«178596_j82867099009371_1_alg».proof.Proof.KernelBlock
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Windows 0, 1, 2, 8, 9 move with the grid point along the rows; windows 3 to 7 stay at block 0. -/
theorem block_index : ∀ t : Fin cfg0.N,
      (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The bias row the region finds is the bias vector reshaped to one row. -/
theorem V_bias (c : Dev nD) : (V m c main_v1 : S1x5120.Idx → EReal)
    = shapeCast S1x5120 (m ((c : Thread nD τ).loc main_arg4)) shapeCasts_S5120_S1x5120 := by
  dsimp only [Gen.V, Gen.hostOps0]; after_results; rfl

/-- The weight the region finds is the weight itself: over the extended reals the conversion to the narrower format
    changes nothing. -/
theorem V_weight (c : Dev nD) : (V m c main_v0 : S2048x5120.Idx → EReal)
    = (m ((c : Thread nD τ).loc main_arg3) : S2048x5120.Idx → EReal) := by
  dsimp only [Gen.V, Gen.hostOps0]; after_results; rfl

/-- The gamma row the region finds is the gamma vector reshaped to one row. -/
theorem V_gamma (c : Dev nD) : (V m c main_v2 : S1x1024.Idx → EReal)
    = shapeCast S1x1024 (m ((c : Thread nD τ).loc main_arg5)) shapeCasts_S1024_S1x1024 := by
  dsimp only [Gen.V, Gen.hostOps0]; after_results; rfl

/-- The beta row the region finds is the beta vector reshaped to one row. -/
theorem V_beta (c : Dev nD) : (V m c main_v3 : S1x1024.Idx → EReal)
    = shapeCast S1x1024 (m ((c : Thread nD τ).loc main_arg6)) shapeCasts_S1024_S1x1024 := by
  dsimp only [Gen.V, Gen.hostOps0]; after_results; rfl

/-- The retention row the region finds is the retention vector reshaped to one row. -/
theorem V_ret (c : Dev nD) : (V m c main_v4 : S1x1024.Idx → EReal)
    = shapeCast S1x1024 (m ((c : Thread nD τ).loc main_arg7)) shapeCasts_S1024_S1x1024 := by
  dsimp only [Gen.V, Gen.hostOps0]; after_results; rfl

/-- Row p of the input block at point t is row 128·t + p of the input. -/
theorem iblk0_at (c : Dev nD) (t : Fin cfg0.N) (p : Fin 128) (k : Fin 1024) (r : Fin 16384) (hr : r.val = 128 * t.val + p.val) :
    (iblk m c 0 t : Vec Ideal S128x1024 .f32) (ix2 p k)
      = (m ((c : Thread nD τ).loc main_arg0) : S16384x1024.Idx → EReal) (ix2 r k) := by
  obtain ⟨⟨e0, e1⟩, -⟩ := block_index t
  unfold iblk
  rw [View.read_apply]
  show V m c main_arg0 _ = _
  rw [V_main_arg0]
  congr 1
  funext a; apply Fin.ext
  match a with
  | ⟨0, _⟩ => show win0_0.index t (0 : Fin 2) * 128 + 1 * p.val = r.val; rw [e0, hr]; omega
  | ⟨1, _⟩ => show win0_0.index t (1 : Fin 2) * 1024 + 1 * k.val = k.val; rw [e1]; omega

/-- Row p of the previous hidden state block at point t is row 128·t + p of the previous hidden state. -/
theorem iblk1_at (c : Dev nD) (t : Fin cfg0.N) (p : Fin 128) (k : Fin 1024) (r : Fin 16384) (hr : r.val = 128 * t.val + p.val) :
    (iblk m c 1 t : Vec Ideal S128x1024 .f32) (ix2 p k)
      = (m ((c : Thread nD τ).loc main_arg1) : S16384x1024.Idx → EReal) (ix2 r k) := by
  obtain ⟨-, ⟨e0, e1⟩, -⟩ := block_index t
  unfold iblk
  rw [View.read_apply]
  show V m c main_arg1 _ = _
  rw [V_main_arg1]
  congr 1
  funext a; apply Fin.ext
  match a with
  | ⟨0, _⟩ => show win0_1.index t (0 : Fin 2) * 128 + 1 * p.val = r.val; rw [e0, hr]; omega
  | ⟨1, _⟩ => show win0_1.index t (1 : Fin 2) * 1024 + 1 * k.val = k.val; rw [e1]; omega

/-- Row p of the previous cell state block at point t is row 128·t + p of the previous cell state. -/
theorem iblk2_at (c : Dev nD) (t : Fin cfg0.N) (p : Fin 128) (k : Fin 1024) (r : Fin 16384) (hr : r.val = 128 * t.val + p.val) :
    (iblk m c 2 t : Vec Ideal S128x1024 .f32) (ix2 p k)
      = (m ((c : Thread nD τ).loc main_arg2) : S16384x1024.Idx → EReal) (ix2 r k) := by
  obtain ⟨-, -, ⟨e0, e1⟩, -⟩ := block_index t
  unfold iblk
  rw [View.read_apply]
  show V m c main_arg2 _ = _
  rw [V_main_arg2]
  congr 1
  funext a; apply Fin.ext
  match a with
  | ⟨0, _⟩ => show win0_2.index t (0 : Fin 2) * 128 + 1 * p.val = r.val; rw [e0, hr]; omega
  | ⟨1, _⟩ => show win0_2.index t (1 : Fin 2) * 1024 + 1 * k.val = k.val; rw [e1]; omega

/-- The staged weight is the weight, entry by entry. -/
theorem iblk3_at (c : Dev nD) (t : Fin cfg0.N) (k : Fin 2048) (j : Fin 5120) :
    (iblk m c 3 t : Vec Ideal S2048x5120 .bf16) (ix2 k j)
      = (m ((c : Thread nD τ).loc main_arg3) : S2048x5120.Idx → EReal) (ix2 k j) := by
  obtain ⟨-, -, -, ⟨e0, e1⟩, -⟩ := block_index t
  unfold iblk
  rw [View.read_apply]
  show (V m c main_v0 : S2048x5120.Idx → EReal) _ = _
  rw [V_weight]
  congr 1
  funext a; apply Fin.ext
  match a with
  | ⟨0, _⟩ => show win0_3.index t (0 : Fin 2) * 2048 + 1 * k.val = k.val; rw [e0]; omega
  | ⟨1, _⟩ => show win0_3.index t (1 : Fin 2) * 5120 + 1 * j.val = j.val; rw [e1]; omega

/-- The staged bias row at column j is entry j of the bias vector. -/
theorem iblk4_at (c : Dev nD) (t : Fin cfg0.N) (j : Fin 5120) :
    (iblk m c 4 t : Vec Ideal S1x5120 .f32) (ix2 (0 : Fin 1) j)
      = (m ((c : Thread nD τ).loc main_arg4) : S5120.Idx → EReal) (ix1 j) := by
  obtain ⟨-, -, -, -, ⟨e0, e1⟩, -⟩ := block_index t
  unfold iblk
  rw [View.read_apply]
  show (V m c main_v1 : S1x5120.Idx → EReal) _ = _
  rw [V_bias]
  refine shapeCast_apply _ _ _ (ix1 j) ?_
  rw [Shape.rowMajor_val_two, Shape.rowMajor_val_one]
  show j.val = (win0_4.index t (0 : Fin 2) * 1 + 1 * 0) * 5120 + (win0_4.index t (1 : Fin 2) * 5120 + 1 * j.val)
  rw [e0, e1]; omega

/-- The staged gamma row at column q is entry q of the gamma vector. -/
theorem iblk5_at (c : Dev nD) (t : Fin cfg0.N) (q : Fin 1024) :
    (iblk m c 5 t : Vec Ideal S1x1024 .f32) (ix2 (0 : Fin 1) q)
      = (m ((c : Thread nD τ).loc main_arg5) : S1024.Idx → EReal) (ix1 q) := by
  obtain ⟨-, -, -, -, -, ⟨e0, e1⟩, -⟩ := block_index t
  unfold iblk
  rw [View.read_apply]
  show (V m c main_v2 : S1x1024.Idx → EReal) _ = _
  rw [V_gamma]
  refine shapeCast_apply _ _ _ (ix1 q) ?_
  rw [Shape.rowMajor_val_two, Shape.rowMajor_val_one]
  show q.val = (win0_5.index t (0 : Fin 2) * 1 + 1 * 0) * 1024 + (win0_5.index t (1 : Fin 2) * 1024 + 1 * q.val)
  rw [e0, e1]; omega

/-- The staged beta row at column q is entry q of the beta vector. -/
theorem iblk6_at (c : Dev nD) (t : Fin cfg0.N) (q : Fin 1024) :
    (iblk m c 6 t : Vec Ideal S1x1024 .f32) (ix2 (0 : Fin 1) q)
      = (m ((c : Thread nD τ).loc main_arg6) : S1024.Idx → EReal) (ix1 q) := by
  obtain ⟨-, -, -, -, -, -, ⟨e0, e1⟩, -⟩ := block_index t
  unfold iblk
  rw [View.read_apply]
  show (V m c main_v3 : S1x1024.Idx → EReal) _ = _
  rw [V_beta]
  refine shapeCast_apply _ _ _ (ix1 q) ?_
  rw [Shape.rowMajor_val_two, Shape.rowMajor_val_one]
  show q.val = (win0_6.index t (0 : Fin 2) * 1 + 1 * 0) * 1024 + (win0_6.index t (1 : Fin 2) * 1024 + 1 * q.val)
  rw [e0, e1]; omega

/-- The staged retention row at column q is entry q of the retention vector. -/
theorem iblk7_at (c : Dev nD) (t : Fin cfg0.N) (q : Fin 1024) :
    (iblk m c 7 t : Vec Ideal S1x1024 .f32) (ix2 (0 : Fin 1) q)
      = (m ((c : Thread nD τ).loc main_arg7) : S1024.Idx → EReal) (ix1 q) := by
  obtain ⟨-, -, -, -, -, -, -, ⟨e0, e1⟩, -⟩ := block_index t
  unfold iblk
  rw [View.read_apply]
  show (V m c main_v4 : S1x1024.Idx → EReal) _ = _
  rw [V_ret]
  refine shapeCast_apply _ _ _ (ix1 q) ?_
  rw [Shape.rowMajor_val_two, Shape.rowMajor_val_one]
  show q.val = (win0_7.index t (0 : Fin 2) * 1 + 1 * 0) * 1024 + (win0_7.index t (1 : Fin 2) * 1024 + 1 * q.val)
  rw [e0, e1]; omega

/-- The zero offsets, as a constant function. -/
theorem zero_off : (![0, 0] : Fin 2 → Nat) = fun _ => 0 := funext fun a => by fin_cases a <;> rfl

/-- The upper-half rectangle of the weight places row k at row k. -/
theorem upper_rows_idx (k : Fin 1024) (j : Fin 5120) : r0_1.idx (ix2 k j : S1024x5120.Idx) = ix2 (Cert.Cell.lo k) j := by
  funext a; apply Fin.ext
  match a with
  | ⟨0, _⟩ => show 0 + 1 * k.val = k.val; omega
  | ⟨1, _⟩ => show 0 + 1 * j.val = j.val; omega

/-- The lower-half rectangle of the weight places row k at row k + 1024. -/
theorem lower_rows_idx (k : Fin 1024) (j : Fin 5120) : r0_2.idx (ix2 k j : S1024x5120.Idx) = ix2 (Cert.Cell.hi k) j := by
  funext a; apply Fin.ext
  match a with
  | ⟨0, _⟩ => show 1024 + 1 * k.val = k.val + 1024; omega
  | ⟨1, _⟩ => show 0 + 1 * j.val = j.val; omega

/-- The hidden-state block a point leaves, at row p and column q of the block, from the point's staged blocks. -/
theorem out8_at (x0 x1 x2 : Vec Ideal S128x1024 .f32) (x3 : Vec Ideal S2048x5120 .bf16) (x4 : Vec Ideal S1x5120 .f32)
    (x5 x6 x7 : Vec Ideal S1x1024 .f32) (p : Fin 128) (q : Fin 1024) :
    out0_8 x0 x1 x2 x3 x4 x5 x6 x7 (ix2 p q)
      = Cert.Cell.hNew (Cert.Cell.gateRow (fun k => x0 (ix2 p k)) (fun k => x1 (ix2 p k))
            (fun k j => x3 (ix2 (Cert.Cell.lo k) j)) (fun k j => x3 (ix2 (Cert.Cell.hi k) j)) (fun j => x4 (ix2 (0 : Fin 1) j)))
          (fun q => x2 (ix2 p q)) (fun q => x7 (ix2 (0 : Fin 1) q)) (fun q => x5 (ix2 (0 : Fin 1) q))
          (fun q => x6 (ix2 (0 : Fin 1) q)) q := by
  unfold out0_8
  simp only [View.ld_unit_zero (S := S128x1024) zero_off, View.ld_unit_zero (S := S1x5120) zero_off, View.ld_unit_zero (S := S1x1024) zero_off]
  rw [Value.canon8_eq, Block.E8_at]
  show Cert.Cell.hNew (Cert.Cell.gateRow _ _ (fun k j => x3 (r0_1.idx (ix2 k j))) (fun k j => x3 (r0_2.idx (ix2 k j))) _) _ _ _ _ q = _
  simp only [upper_rows_idx, lower_rows_idx]

/-- What point t writes back to the first output is block t of the new hidden state of the argument arrays. -/
theorem flushed_eq8 (c : Dev nD) (t : Fin cfg0.N) :
    (dats m 0 c).flushed 8 t = ((cfg0.win 8).blk t).view.read (Elt Ideal)
      (Cert.Cell.hOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))) := by
  rw [Value.flushed8]
  funext y
  obtain ⟨p, q, rfl⟩ : ∃ (p : Fin 128) (q : Fin 1024), y = ix2 p q := ⟨y 0, y 1, eq_ix2 y⟩
  have ht : t.val < 128 := t.isLt
  have hr : 128 * t.val + p.val < 16384 := by have := p.isLt; omega
  obtain ⟨-, -, -, -, -, -, -, -, ⟨e0, e1⟩, -⟩ := block_index t
  have hemb : ((cfg0.win 8).blk t).view.emb (ix2 p q) = (ix2 (⟨128 * t.val + p.val, hr⟩ : Fin 16384) q : S16384x1024.Idx) := by
    funext a; apply Fin.ext
    match a with
    | ⟨0, _⟩ => show win0_8.index t (0 : Fin 2) * 128 + 1 * p.val = 128 * t.val + p.val; rw [e0]; omega
    | ⟨1, _⟩ => show win0_8.index t (1 : Fin 2) * 1024 + 1 * q.val = q.val; rw [e1]; omega
  rw [View.read_apply]
  show out0_8 (F := Ideal) _ _ _ _ _ _ _ _ (ix2 p q) = Cert.Cell.hOut _ _ _ _ _ _ _ _ (((cfg0.win 8).blk t).view.emb (ix2 p q))
  rw [hemb, Cert.Cell.hOut_at]
  refine (out8_at (iblk m c 0 t) (iblk m c 1 t) (iblk m c 2 t) (iblk m c 3 t) (iblk m c 4 t) (iblk m c 5 t) (iblk m c 6 t) (iblk m c 7 t) p q).trans ?_
  have h0 := fun k => iblk0_at m c t p k ⟨128 * t.val + p.val, hr⟩ rfl
  have h1 := fun k => iblk1_at m c t p k ⟨128 * t.val + p.val, hr⟩ rfl
  have h2 := fun k => iblk2_at m c t p k ⟨128 * t.val + p.val, hr⟩ rfl
  have h3 := iblk3_at m c t
  have h4 := iblk4_at m c t
  have h5 := iblk5_at m c t
  have h6 := iblk6_at m c t
  have h7 := iblk7_at m c t
  unfold Cert.Cell.gateOf
  simp only [h0, h1, h2, h3, h4, h5, h6, h7]

/-- An index of the array is in point t's block iff each coordinate is in the block's range on its axis. -/
theorem mem_blk8 (t : Fin cfg0.N) (i : S16384x1024.Idx) :
    i ∈ ((cfg0.win 8).blk t).view.set ↔ ∀ a : Fin 2, win0_8.index t a * S128x1024.size a ≤ (i a).val
      ∧ (i a).val < win0_8.index t a * S128x1024.size a + S128x1024.size a := by
  show i ∈ ((View.whole main_v5_0).slice (win0_8.rect t)).set ↔ _
  rw [View.set_slice_whole, Rect.mem_set_unit]
  exact Iff.rfl

/-- Row r of the array lies in the block of point r / 128: the 128 blocks tile the 16384 rows. -/
theorem cover8 (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have hlt : (i 0).val / 128 < 128 := by omega
  obtain ⟨-, -, -, -, -, -, -, -, ⟨e0, e1⟩, -⟩ := block_index (⟨(i 0).val / 128, hlt⟩ : Fin cfg0.N)
  refine ⟨⟨(i 0).val / 128, hlt⟩, flush0_8 _, ?_⟩
  rw [mem_blk8]
  intro a
  match a with
  | ⟨0, _⟩ =>
    show win0_8.index ⟨(i 0).val / 128, hlt⟩ (0 : Fin 2) * 128 ≤ (i 0).val
      ∧ (i 0).val < win0_8.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_8.index ⟨(i 0).val / 128, hlt⟩ (1 : Fin 2) * 1024 ≤ (i 1).val
      ∧ (i 1).val < win0_8.index ⟨(i 0).val / 128, hlt⟩ (1 : Fin 2) * 1024 + 1024
    rw [e1]
    omega

/-- The cell-state block a point leaves, at row p and column q of the block, from the point's staged blocks. -/
theorem out9_at (x0 x1 x2 : Vec Ideal S128x1024 .f32) (x3 : Vec Ideal S2048x5120 .bf16) (x4 : Vec Ideal S1x5120 .f32)
    (x5 x6 x7 : Vec Ideal S1x1024 .f32) (p : Fin 128) (q : Fin 1024) :
    out0_9 x0 x1 x2 x3 x4 x5 x6 x7 (ix2 p q)
      = Cert.Cell.cNew (Cert.Cell.gateRow (fun k => x0 (ix2 p k)) (fun k => x1 (ix2 p k))
            (fun k j => x3 (ix2 (Cert.Cell.lo k) j)) (fun k j => x3 (ix2 (Cert.Cell.hi k) j)) (fun j => x4 (ix2 (0 : Fin 1) j)))
          (fun q => x2 (ix2 p q)) (fun q => x7 (ix2 (0 : Fin 1) q)) q := by
  unfold out0_9
  simp only [View.ld_unit_zero (S := S128x1024) zero_off, View.ld_unit_zero (S := S1x5120) zero_off, View.ld_unit_zero (S := S1x1024) zero_off]
  rw [Value.canon9_eq, Block.E9_at]
  show Cert.Cell.cNew (Cert.Cell.gateRow _ _ (fun k j => x3 (r0_1.idx (ix2 k j))) (fun k j => x3 (r0_2.idx (ix2 k j))) _) _ _ q = _
  simp only [upper_rows_idx, lower_rows_idx]

/-- What point t writes back to the second output is block t of the new cell state of the argument arrays. -/
theorem flushed_eq9 (c : Dev nD) (t : Fin cfg0.N) :
    (dats m 0 c).flushed 9 t = ((cfg0.win 9).blk t).view.read (Elt Ideal)
      (Cert.Cell.cOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7))) := by
  rw [Value.flushed9]
  funext y
  obtain ⟨p, q, rfl⟩ : ∃ (p : Fin 128) (q : Fin 1024), y = ix2 p q := ⟨y 0, y 1, eq_ix2 y⟩
  have ht : t.val < 128 := t.isLt
  have hr : 128 * t.val + p.val < 16384 := by have := p.isLt; omega
  obtain ⟨-, -, -, -, -, -, -, -, -, ⟨e0, e1⟩⟩ := block_index t
  have hemb : ((cfg0.win 9).blk t).view.emb (ix2 p q) = (ix2 (⟨128 * t.val + p.val, hr⟩ : Fin 16384) q : S16384x1024.Idx) := by
    funext a; apply Fin.ext
    match a with
    | ⟨0, _⟩ => show win0_9.index t (0 : Fin 2) * 128 + 1 * p.val = 128 * t.val + p.val; rw [e0]; omega
    | ⟨1, _⟩ => show win0_9.index t (1 : Fin 2) * 1024 + 1 * q.val = q.val; rw [e1]; omega
  rw [View.read_apply]
  show out0_9 (F := Ideal) _ _ _ _ _ _ _ _ (ix2 p q) = Cert.Cell.cOut _ _ _ _ _ _ (((cfg0.win 9).blk t).view.emb (ix2 p q))
  rw [hemb, Cert.Cell.cOut_at]
  refine (out9_at (iblk m c 0 t) (iblk m c 1 t) (iblk m c 2 t) (iblk m c 3 t) (iblk m c 4 t) (iblk m c 5 t) (iblk m c 6 t) (iblk m c 7 t) p q).trans ?_
  have h0 := fun k => iblk0_at m c t p k ⟨128 * t.val + p.val, hr⟩ rfl
  have h1 := fun k => iblk1_at m c t p k ⟨128 * t.val + p.val, hr⟩ rfl
  have h2 := fun k => iblk2_at m c t p k ⟨128 * t.val + p.val, hr⟩ rfl
  have h3 := iblk3_at m c t
  have h4 := iblk4_at m c t
  have h7 := iblk7_at m c t
  unfold Cert.Cell.gateOf
  simp only [h0, h1, h2, h3, h4, h7]

/-- An index of the array is in point t's block iff each coordinate is in the block's range on its axis. -/
theorem mem_blk9 (t : Fin cfg0.N) (i : S16384x1024.Idx) :
    i ∈ ((cfg0.win 9).blk t).view.set ↔ ∀ a : Fin 2, win0_9.index t a * S128x1024.size a ≤ (i a).val
      ∧ (i a).val < win0_9.index t a * S128x1024.size a + S128x1024.size a := by
  show i ∈ ((View.whole main_v5_1).slice (win0_9.rect t)).set ↔ _
  rw [View.set_slice_whole, Rect.mem_set_unit]
  exact Iff.rfl

/-- Row r of the array lies in the block of point r / 128: the 128 blocks tile the 16384 rows. -/
theorem cover9 (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  have hlt : (i 0).val / 128 < 128 := by omega
  obtain ⟨-, -, -, -, -, -, -, -, -, ⟨e0, e1⟩⟩ := block_index (⟨(i 0).val / 128, hlt⟩ : Fin cfg0.N)
  refine ⟨⟨(i 0).val / 128, hlt⟩, flush0_9 _, ?_⟩
  rw [mem_blk9]
  intro a
  match a with
  | ⟨0, _⟩ =>
    show win0_9.index ⟨(i 0).val / 128, hlt⟩ (0 : Fin 2) * 128 ≤ (i 0).val
      ∧ (i 0).val < win0_9.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_9.index ⟨(i 0).val / 128, hlt⟩ (1 : Fin 2) * 1024 ≤ (i 1).val
      ∧ (i 1).val < win0_9.index ⟨(i 0).val / 128, hlt⟩ (1 : Fin 2) * 1024 + 1024
    rw [e1]
    omega

/-- After the run the first output array is the new hidden state of the argument arrays. -/
theorem final8 (c : Dev nD) :
    (dats m 0 c).arrAt 8 cfg0.N
      = Cert.Cell.hOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (dats m 0 c).arrAt_eq_of_cover 8 _ (fun t _ => flushed_eq8 m c t) cover8

/-- After the run the second output array is the new cell state of the argument arrays. -/
theorem final9 (c : Dev nD) :
    (dats m 0 c).arrAt 9 cfg0.N
      = Cert.Cell.cOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg7)) :=
  (dats m 0 c).arrAt_eq_of_cover 9 _ (fun t _ => flushed_eq9 m c t) cover9

/-- The kernel's run with both results named as the cell's functions of the arguments, the arguments unchanged. -/
theorem run : θ_run defs (onTc (τ := τ) (main (F := Ideal))) ⟨m, fun _ => 0, ρ⟩ fun r => ∀ c : Dev nD,
      r.2.mem ((c : Thread nD τ).loc main_v5_0)
          = Cert.Cell.hOut (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7))
      ∧ r.2.mem ((c : Thread nD τ).loc main_v5_1)
          = Cert.Cell.cOut (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2⟩)
    (Cert.KernelIdeal.Value.run_blocks m ρ)

end Cert.KernelIdeal.Arr

end
-- ==== Proof.RefTerm.lean ====
/-
  The reference computation's two results as terms of its own host operations over the argument arrays: the fused
  pre-activations (the two inputs side by side times the weight, plus the bias spread over the rows), the logistic
  function spelt as 1 / (1 + exp(−z)), the new cell state, the row mean and the row's mean squared deviation (the
  latter as the library routine computes it: the sum of squared deviations over 1024 − 0, guarded by a test that
  1024 − 0 is positive), and the new hidden state. These are the terms the reference's run leaves in its two result
  buffers; they are read index by index elsewhere.
-/
import proofs.«178596_j82867099009371_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The 16384 × 1024 array of ones. -/
def ones : FVec F S16384x1024 .f32 :=
  broadcastInDim S16384x1024 ![] bcast_S_S16384x1024 (constant S_ .f32 0x3F800000#32)

/-- The logistic function, spelt 1 / (1 + exp(−z)). -/
def sigm (z : FVec F S16384x1024 .f32) : FVec F S16384x1024 .f32 :=
  Host.divf ones (addf ones (Host.exp (Host.negf z)))

/-- A vector of 1024 entries spread over the 16384 rows. -/
def rowBcast (v : FVec F S1024 .f32) : FVec F S16384x1024 .f32 :=
  broadcastInDim S16384x1024 ![0, 1] bcast_S1x1024_S16384x1024_0_1 (broadcastInDim S1x1024 ![1] bcast_S1024_S1x1024_1 v)

/-- A column of 16384 per-row values spread along the rows. -/
def spread (v : FVec F S16384x1 .f32) : FVec F S16384x1024 .f32 :=
  broadcastInDim S16384x1024 ![0, 1] bcast_S16384x1_S16384x1024_0_1 v

/-- The fused pre-activations: [x | h] · W + b. -/
def gates (x h : FVec F S16384x1024 .f32) (W : FVec F S2048x5120 .f32) (b : FVec F S5120 .f32) : FVec F S16384x5120 .f32 :=
  addf
    (Host.dotGeneral dot_S16384x2048_S2048x5120_S16384x5120_1_0_0_1_n_n none
      (concatenate S16384x2048 1 [⟨S16384x1024, x⟩, ⟨S16384x1024, h⟩] concatenates_S16384x1024_S16384x1024_S16384x2048_d1) W)
    (broadcastInDim S16384x5120 ![0, 1] bcast_S1x5120_S16384x5120_0_1 (broadcastInDim S1x5120 ![1] bcast_S5120_S1x5120_1 b))

/-- The five column groups of the pre-activations. -/
def grpF (g : FVec F S16384x5120 .f32) : FVec F S16384x1024 .f32 := extractStridedSlice S16384x1024 ![0, 0] g slices_S16384x5120_S16384x1024_0_0
def grpI (g : FVec F S16384x5120 .f32) : FVec F S16384x1024 .f32 := extractStridedSlice S16384x1024 ![0, 1024] g slices_S16384x5120_S16384x1024_0_1024
def grpO (g : FVec F S16384x5120 .f32) : FVec F S16384x1024 .f32 := extractStridedSlice S16384x1024 ![0, 2048] g slices_S16384x5120_S16384x1024_0_2048
def grpC (g : FVec F S16384x5120 .f32) : FVec F S16384x1024 .f32 := extractStridedSlice S16384x1024 ![0, 3072] g slices_S16384x5120_S16384x1024_0_3072
def grpM (g : FVec F S16384x5120 .f32) : FVec F S16384x1024 .f32 := extractStridedSlice S16384x1024 ![0, 4096] g slices_S16384x5120_S16384x1024_0_4096

/-- The new cell state. -/
def cnew (g : FVec F S16384x5120 .f32) (c : FVec F S16384x1024 .f32) (ret : FVec F S1024 .f32) : FVec F S16384x1024 .f32 :=
  addf
    (mulf (sigm (grpM g))
      (addf (mulf (addf (mulf (sigm (grpF g)) c) (mulf (sigm (grpI g)) (Host.tanh (grpC g)))) (rowBcast ret))
        (mulf (rowBcast (subf (broadcastInDim S1024 ![] bcast_S_S1024 (constant S_ .f32 0x3F800000#32)) ret)) c)))
    (mulf (subf ones (sigm (grpM g))) c)

/-- The per-row sum as a column. -/
def rowSum (o : FVec F S16384x1024 .f32) : FVec F S16384x1 .f32 :=
  broadcastInDim S16384x1 ![0] bcast_S16384_S16384x1_0
    (Host.reduceAdd o (constant S_ .f32 0x00000000#32) reducesTo_S16384x1024_S16384_d1 h_S_)

/-- The per-row mean as a column. -/
def colMean (o : FVec F S16384x1024 .f32) : FVec F S16384x1 .f32 :=
  Host.divf (rowSum o) (broadcastInDim S16384x1 ![] bcast_S_S16384x1 (constant S_ .f32 0x44800000#32))

/-- The divisor of the mean squared deviation: 1024 minus the correction 0 converted from an integer. -/
def denom : FVec F S_ .f32 :=
  subf (constant S_ .f32 0x44800000#32) (sitofp .f32 (constantI S_ 32 0#32))

/-- The per-row mean squared deviation as a column, as the library routine computes it. -/
def colVar (o : FVec F S16384x1024 .f32) : FVec F S16384x1 .f32 :=
  select (broadcastInDim S16384x1 ![] bcast_S_S16384x1 (cmpf .ogt (denom (F := F)) (constant (F := F) S_ .f32 0x00000000#32)))
    (Host.divf (rowSum (mulf (subf o (spread (colMean o))) (subf o (spread (colMean o)))))
      (broadcastInDim S16384x1 ![] bcast_S_S16384x1 denom))
    (broadcastInDim S16384x1 ![] bcast_S_S16384x1 (id (constant S_ .f32 0x7FC00000#32)))

/-- The new hidden state. -/
def hnew (g : FVec F S16384x5120 .f32) (c : FVec F S16384x1024 .f32) (gam bet ret : FVec F S1024 .f32) : FVec F S16384x1024 .f32 :=
  mulf
    (sigm
      (addf
        (mulf
          (mulf (subf (sigm (grpO g)) (spread (colMean (sigm (grpO g)))))
            (spread (Host.rsqrt (addf (colVar (sigm (grpO g)))
              (broadcastInDim S16384x1 ![] bcast_S_S16384x1 (constant S_ .f32 0x3727C5AC#32))))))
          (rowBcast gam))
        (rowBcast bet)))
    (Host.tanh (cnew g c ret))

end Cert.ReferenceIdeal.RefTerm

end
-- ==== Proof.RefOps.lean ====
/- (the script is filed with the unit as scratch/mkops.js; it is a text transform of the printed reference program and runs no Lean).
   A TABLE, no argument: the reference's main function as the list of its host operations in order — one entry per printed
   operation line of its two windows, the one call of the row variance routine replaced by that routine's own operation lines
   over the call's buffer record, followed by the nested selection routine's over the nested record — and, entry for entry,
   the fact that each operation touches TensorCore buffers only. That the list IS the program is proved by hand in RefRun.lean. -/
import proofs.«178596_j82867099009371_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The main function's operations in order, the two calls unfolded at their sites. -/
abbrev ops : List (HloOp τ sig (Elt F)) :=
  [ binary main_arg0 main_arg1 main_v0 ((fun a b => concatenate S16384x2048 1 [⟨S16384x1024, a⟩, ⟨S16384x1024, b⟩] concatenates_S16384x1024_S16384x1024_S16384x2048_d1) : (⟨S16384x1024, .f32⟩ : BufTy).Contents (Elt F) → (⟨S16384x1024, .f32⟩ : BufTy).Contents (Elt F) → (⟨S16384x2048, .f32⟩ : BufTy).Contents (Elt F)),
    binary main_v0 main_arg3 main_v1 ((fun l r => Host.dotGeneral dot_S16384x2048_S2048x5120_S16384x5120_1_0_0_1_n_n none l r) : (⟨S16384x2048, .f32⟩ : BufTy).Contents (Elt F) → (⟨S2048x5120, .f32⟩ : BufTy).Contents (Elt F) → (⟨S16384x5120, .f32⟩ : BufTy).Contents (Elt F)),
    unary main_arg4 main_v2 (broadcastInDim S1x5120 ![1] bcast_S5120_S1x5120_1 : (⟨S5120, .f32⟩ : BufTy).Contents (Elt F) → (⟨S1x5120, .f32⟩ : BufTy).Contents (Elt F)),
    unary main_v2 main_v3 (broadcastInDim S16384x5120 ![0, 1] bcast_S1x5120_S16384x5120_0_1 : (⟨S1x5120, .f32⟩ : BufTy).Contents (Elt F) → (⟨S16384x5120, .f32⟩ : BufTy).Contents (Elt F)),
    binary main_v1 main_v3 main_v4 (addf : (⟨S16384x5120, .f32⟩ : BufTy).Contents (Elt F) → (⟨S16384x5120, .f32⟩ : BufTy).Contents (Elt F) → (⟨S16384x5120, .f32⟩ : BufTy).Contents (Elt F)),
    unary main_v4 main_v5 ((extractStridedSlice S16384x1024 ![0, 0] · slices_S16384x5120_S16384x1024_0_0) : (⟨S16384x5120, .f32⟩ : BufTy).Contents (Elt F) → (⟨S16384x1024, .f32⟩ : BufTy).Contents (Elt F)),
    unary main_v4 main_v6 ((extractStridedSlice S16384x1024 ![0, 1024] · slices_S16384x5120_S16384x1024_0_1024) : (⟨S16384x5120, .f32⟩ : BufTy).Contents (Elt F) → (⟨S16384x1024, .f32⟩ : BufTy).Contents (Elt F)),
    unary main_v4 main_v7 ((extractStridedSlice S16384x1024 ![0, 2048] · slices_S16384x5120_S16384x1024_0_2048) : (⟨S16384x5120, .f32⟩ : BufTy).Contents (Elt F) → (⟨S16384x1024, .f32⟩ : BufTy).Contents (Elt F)),
    unary main_v4 main_v8 ((extractStridedSlice S16384x1024 ![0, 3072] · slices_S16384x5120_S16384x1024_0_3072) : (⟨S16384x5120, .f32⟩ : BufTy).Contents (Elt F) → (⟨S16384x1024, .f32⟩ : BufTy).Contents (Elt F)),
    unary main_v4 main_v9 ((extractStridedSlice S16384x1024 ![0, 4096] · slices_S16384x5120_S16384x1024_0_4096) : (⟨S16384x5120, .f32⟩ : BufTy).Contents (Elt F) → (⟨S16384x1024, .f32⟩ : BufTy).Contents (Elt F)),
    unary main_v5 main_v10 (Host.negf : (⟨S16384x1024, .f32⟩ : BufTy).Contents (Elt F) → (⟨S16384x1024, .f32⟩ : BufTy).Contents (Elt F)),
    unary main_v10 main_v11 (Host.exp : (⟨S16384x1024, .f32⟩ : BufTy).Contents (Elt F) → (⟨S16384x1024, .f32⟩ : BufTy).Contents (Elt F)),
    nullary main_cst (constant S_ .f32 0x3F800000#32),
    unary main_cst main_v12 (broadcastInDim S16384x1024 ![] bcast_S_S16384x1024 : (⟨S_, .f32⟩ : BufTy).Contents (Elt F) → (⟨S16384x1024, .f32⟩ : BufTy).Contents (Elt F)),
    binary main_v12 main_v11 main_v13 (addf : (⟨S16384x1024, .f32⟩ : BufTy).Contents (Elt F) → (⟨S16384x1024, .f32⟩ : BufTy).Contents (Elt F) → (⟨S16384x1024, .f32⟩ : BufTy).Contents (Elt F)),
    nullary main_cst_0 (constant S_ .f32 0x3F800000#32),
    unary main_cst_0 main_v14 (broadcastInDim S16384x1024 ![] bcast_S_S16384x1024 : (⟨S_, .f32⟩ : BufTy).Contents (Elt F) → (⟨S16384x1024, .f32⟩ : BufTy).Contents (Elt F)),
    binary main_v14 main_v13 main_v15 (Host.divf : (⟨S16384x1024, .f32⟩ : BufTy).Contents (Elt F) → (⟨S16384x1024, .f32⟩ : BufTy).Contents (Elt F) → (⟨S16384x1024, .f32⟩ : BufTy).Contents (Elt F)),
    unary main_v6 main_v16 (Host.negf : (⟨S16384x1024, .f32⟩ : BufTy).Contents (Elt F) → (⟨S16384x1024, .f32⟩ : BufTy).Contents (Elt F)),
    unary main_v16 main_v17 (Host.exp : (⟨S16384x1024, .f32⟩ : BufTy).Contents (Elt F) → (⟨S16384x1024, .f32⟩ : BufTy).Contents (Elt F)),
    nullary main_cst_1 (constant S_ .f32 0x3F800000#32),
    unary main_cst_1 main_v18 (broadcastInDim S16384x1024 ![] bcast_S_S16384x1024 : (⟨S_, .f32⟩ : BufTy).Contents (Elt F) → (⟨S16384x1024, .f32⟩ : BufTy).Contents (Elt F)),
    binary main_v18 main_v17 main_v19 (addf : (⟨S16384x1024, .f32⟩ : BufTy).Contents (Elt F) → (⟨S16384x1024, .f32⟩ : BufTy).Contents (Elt F) → (⟨S16384x1024, .f32⟩ : BufTy).Contents (Elt F)),
    nullary main_cst_2 (constant S_ .f32 0x3F800000#32),
    unary main_cst_2 main_v20 (broadcastInDim S16384x1024 ![] bcast_S_S16384x1024 : (⟨S_, .f32⟩ : BufTy).Contents (Elt F) → (⟨S16384x1024, .f32⟩ : BufTy).Contents (Elt F)),
    binary main_v20 main_v19 main_v21 (Host.divf : (⟨S16384x1024, .f32⟩ : BufTy).Contents (Elt F) → (⟨S16384x1024, .f32⟩ : BufTy).Contents (Elt F) → (⟨S16384x1024, .f32⟩ : BufTy).Contents (Elt F)),
    unary main_v7 main_v22 (Host.negf : (⟨S16384x1024, .f32⟩ : BufTy).Contents (Elt F) → (⟨S16384x1024, .f32⟩ : BufTy).Contents (Elt F)),
    unary main_v22 main_v23 (Host.exp : (⟨S16384x1024, .f32⟩ : BufTy).Contents (Elt F) → (⟨S16384x1024, .f32⟩ : BufTy).Contents (Elt F)),
    nullary main_cst_3 (constant S_ .f32 0x3F800000#32),
    unary main_cst_3 main_v24 (broadcastInDim S16384x1024 ![] bcast_S_S16384x1024 : (⟨S_, .f32⟩ : BufTy).Contents (Elt F) → (⟨S16384x1024, .f32⟩ : BufTy).Contents (Elt F)),
    binary main_v24 main_v23 main_v25 (addf : (⟨S16384x1024, .f32⟩ : BufTy).Contents (Elt F) → (⟨S16384x1024, .f32⟩ : BufTy).Contents (Elt F) → (⟨S16384x1024, .f32⟩ : BufTy).Contents (Elt F)),
    nullary main_cst_4 (constant S_ .f32 0x3F800000#32),
    unary main_cst_4 main_v26 (broadcastInDim S16384x1024 ![] bcast_S_S16384x1024 : (⟨S_, .f32⟩ : BufTy).Contents (Elt F) → (⟨S16384x1024, .f32⟩ : BufTy).Contents (Elt F)),
    binary main_v26 main_v25 main_v27 (Host.divf : (⟨S16384x1024, .f32⟩ : BufTy).Contents (Elt F) → (⟨S16384x1024, .f32⟩ : BufTy).Contents (Elt F) → (⟨S16384x1024, .f32⟩ : BufTy).Contents (Elt F)),
    unary main_v8 main_v28 (Host.tanh : (⟨S16384x1024, .f32⟩ : BufTy).Contents (Elt F) → (⟨S16384x1024, .f32⟩ : BufTy).Contents (Elt F)),
    unary main_v9 main_v29 (Host.negf : (⟨S16384x1024, .f32⟩ : BufTy).Contents (Elt F) → (⟨S16384x1024, .f32⟩ : BufTy).Contents (Elt F)),
    unary main_v29 main_v30 (Host.exp : (⟨S16384x1024, .f32⟩ : BufTy).Contents (Elt F) → (⟨S16384x1024, .f32⟩ : BufTy).Contents (Elt F)),
    nullary main_cst_5 (constant S_ .f32 0x3F800000#32),
    unary main_cst_5 main_v31 (broadcastInDim S16384x1024 ![] bcast_S_S16384x1024 : (⟨S_, .f32⟩ : BufTy).Contents (Elt F) → (⟨S16384x1024, .f32⟩ : BufTy).Contents (Elt F)),
    binary main_v31 main_v30 main_v32 (addf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x3F800000#32),
    unary main_cst_6 main_v33 (broadcastInDim S16384x1024 ![] bcast_S_S16384x1024 : (⟨S_, .f32⟩ : BufTy).Contents (Elt F) → (⟨S16384x1024, .f32⟩ : BufTy).Contents (Elt F)),
    binary main_v33 main_v32 main_v34 (Host.divf : (⟨S16384x1024, .f32⟩ : BufTy).Contents (Elt F) → (⟨S16384x1024, .f32⟩ : BufTy).Contents (Elt F) → (⟨S16384x1024, .f32⟩ : BufTy).Contents (Elt F)),
    binary main_v15 main_arg2 main_v35 (mulf : (⟨S16384x1024, .f32⟩ : BufTy).Contents (Elt F) → (⟨S16384x1024, .f32⟩ : BufTy).Contents (Elt F) → (⟨S16384x1024, .f32⟩ : BufTy).Contents (Elt F)),
    binary main_v21 main_v28 main_v36 (mulf : (⟨S16384x1024, .f32⟩ : BufTy).Contents (Elt F) → (⟨S16384x1024, .f32⟩ : BufTy).Contents (Elt F) → (⟨S16384x1024, .f32⟩ : BufTy).Contents (Elt F)),
    binary main_v35 main_v36 main_v37 (addf : (⟨S16384x1024, .f32⟩ : BufTy).Contents (Elt F) → (⟨S16384x1024, .f32⟩ : BufTy).Contents (Elt F) → (⟨S16384x1024, .f32⟩ : BufTy).Contents (Elt F)),
    unary main_arg7 main_v38 (broadcastInDim S1x1024 ![1] bcast_S1024_S1x1024_1 : (⟨S1024, .f32⟩ : BufTy).Contents (Elt F) → (⟨S1x1024, .f32⟩ : BufTy).Contents (Elt F)),
    unary main_v38 main_v39 (broadcastInDim S16384x1024 ![0, 1] bcast_S1x1024_S16384x1024_0_1 : (⟨S1x1024, .f32⟩ : BufTy).Contents (Elt F) → (⟨S16384x1024, .f32⟩ : BufTy).Contents (Elt F)),
    binary main_v37 main_v39 main_v40 (mulf : (⟨S16384x1024, .f32⟩ : BufTy).Contents (Elt F) → (⟨S16384x1024, .f32⟩ : BufTy).Contents (Elt F) → (⟨S16384x1024, .f32⟩ : BufTy).Contents (Elt F)),
    nullary main_cst_7 (constant S_ .f32 0x3F800000#32),
    unary main_cst_7 main_v41 (broadcastInDim S1024 ![] bcast_S_S1024 : (⟨S_, .f32⟩ : BufTy).Contents (Elt F) → (⟨S1024, .f32⟩ : BufTy).Contents (Elt F)),
    binary main_v41 main_arg7 main_v42 (subf : (⟨S1024, .f32⟩ : BufTy).Contents (Elt F) → (⟨S1024, .f32⟩ : BufTy).Contents (Elt F) → (⟨S1024, .f32⟩ : BufTy).Contents (Elt F)),
    unary main_v42 main_v43 (broadcastInDim S1x1024 ![1] bcast_S1024_S1x1024_1 : (⟨S1024, .f32⟩ : BufTy).Contents (Elt F) → (⟨S1x1024, .f32⟩ : BufTy).Contents (Elt F)),
    unary main_v43 main_v44 (broadcastInDim S16384x1024 ![0, 1] bcast_S1x1024_S16384x1024_0_1 : (⟨S1x1024, .f32⟩ : BufTy).Contents (Elt F) → (⟨S16384x1024, .f32⟩ : BufTy).Contents (Elt F)),
    binary main_v44 main_arg2 main_v45 (mulf : (⟨S16384x1024, .f32⟩ : BufTy).Contents (Elt F) → (⟨S16384x1024, .f32⟩ : BufTy).Contents (Elt F) → (⟨S16384x1024, .f32⟩ : BufTy).Contents (Elt F)),
    binary main_v40 main_v45 main_v46 (addf : (⟨S16384x1024, .f32⟩ : BufTy).Contents (Elt F) → (⟨S16384x1024, .f32⟩ : BufTy).Contents (Elt F) → (⟨S16384x1024, .f32⟩ : BufTy).Contents (Elt F)),
    binary main_v34 main_v46 main_v47 (mulf : (⟨S16384x1024, .f32⟩ : BufTy).Contents (Elt F) → (⟨S16384x1024, .f32⟩ : BufTy).Contents (Elt F) → (⟨S16384x1024, .f32⟩ : BufTy).Contents (Elt F)),
    nullary main_cst_8 (constant S_ .f32 0x3F800000#32),
    unary main_cst_8 main_v48 (broadcastInDim S16384x1024 ![] bcast_S_S16384x1024 : (⟨S_, .f32⟩ : BufTy).Contents (Elt F) → (⟨S16384x1024, .f32⟩ : BufTy).Contents (Elt F)),
    binary main_v48 main_v34 main_v49 (subf : (⟨S16384x1024, .f32⟩ : BufTy).Contents (Elt F) → (⟨S16384x1024, .f32⟩ : BufTy).Contents (Elt F) → (⟨S16384x1024, .f32⟩ : BufTy).Contents (Elt F)),
    binary main_v49 main_arg2 main_v50 (mulf : (⟨S16384x1024, .f32⟩ : BufTy).Contents (Elt F) → (⟨S16384x1024, .f32⟩ : BufTy).Contents (Elt F) → (⟨S16384x1024, .f32⟩ : BufTy).Contents (Elt F)),
    binary main_v47 main_v50 main_v51 (addf : (⟨S16384x1024, .f32⟩ : BufTy).Contents (Elt F) → (⟨S16384x1024, .f32⟩ : BufTy).Contents (Elt F) → (⟨S16384x1024, .f32⟩ : BufTy).Contents (Elt F)),
    nullary main_cst_9 (constant S_ .f32 0x00000000#32),
    binary main_v27 main_cst_9 main_v52 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v52 main_v53 (broadcastInDim S16384x1 ![0] bcast_S16384_S16384x1_0 : (⟨S16384, .f32⟩ : BufTy).Contents (Elt F) → (⟨S16384x1, .f32⟩ : BufTy).Contents (Elt F)),
    nullary main_cst_10 (constant S_ .f32 0x44800000#32),
    unary main_cst_10 main_v54 (broadcastInDim S16384x1 ![] bcast_S_S16384x1 : (⟨S_, .f32⟩ : BufTy).Contents (Elt F) → (⟨S16384x1, .f32⟩ : BufTy).Contents (Elt F)),
    binary main_v53 main_v54 main_v55 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call0.cst (constant S_ .f32 0x00000000#32),
    TRef.binary (.of main_v27 : TRef sig ⟨S16384x1024, .f32⟩) main_call0.cst main_call0.v0 (fun x v => Host.reduceAdd x v reducesTo_S16384x1024_S16384_d1 h_S_),
    TRef.unary main_call0.v0 main_call0.v1 (broadcastInDim S16384x1 ![0] bcast_S16384_S16384x1_0),
    TRef.nullary main_call0.cst_0 (constant S_ .f32 0x44800000#32),
    TRef.unary main_call0.cst_0 main_call0.v2 (broadcastInDim S16384x1 ![] bcast_S_S16384x1),
    TRef.binary main_call0.v1 main_call0.v2 main_call0.v3 Host.divf,
    TRef.unary main_call0.v3 main_call0.v4 (broadcastInDim S16384x1024 ![0, 1] bcast_S16384x1_S16384x1024_0_1),
    TRef.binary (.of main_v27 : TRef sig ⟨S16384x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x1024_S16384_d1 h_S_),
    TRef.unary main_call0.v9 main_call0.v10 (broadcastInDim S16384x1 ![0] bcast_S16384_S16384x1_0),
    TRef.unary main_call0.v8 main_call0.v11 (broadcastInDim S16384x1 ![] bcast_S_S16384x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16384x1 ![] bcast_S_S16384x1),
    TRef.ternary main_call0.v13 main_call0.v12 main_call0.call0.v1 main_call0.call0.v2 (fun p a b => select (broadcastInDim S16384x1 ![] bcast_S_S16384x1 p) a b),
    unary main_v55 main_v57 (broadcastInDim S16384x1024 ![0, 1] bcast_S16384x1_S16384x1024_0_1 : (⟨S16384x1, .f32⟩ : BufTy).Contents (Elt F) → (⟨S16384x1024, .f32⟩ : BufTy).Contents (Elt F)),
    binary main_v27 main_v57 main_v58 (subf : (⟨S16384x1024, .f32⟩ : BufTy).Contents (Elt F) → (⟨S16384x1024, .f32⟩ : BufTy).Contents (Elt F) → (⟨S16384x1024, .f32⟩ : BufTy).Contents (Elt F)),
    nullary main_cst_11 (constant S_ .f32 0x3727C5AC#32),
    unary main_cst_11 main_v59 (broadcastInDim S16384x1 ![] bcast_S_S16384x1 : (⟨S_, .f32⟩ : BufTy).Contents (Elt F) → (⟨S16384x1, .f32⟩ : BufTy).Contents (Elt F)),
    binary main_v56 main_v59 main_v60 (addf : (⟨S16384x1, .f32⟩ : BufTy).Contents (Elt F) → (⟨S16384x1, .f32⟩ : BufTy).Contents (Elt F) → (⟨S16384x1, .f32⟩ : BufTy).Contents (Elt F)),
    unary main_v60 main_v61 (Host.rsqrt : (⟨S16384x1, .f32⟩ : BufTy).Contents (Elt F) → (⟨S16384x1, .f32⟩ : BufTy).Contents (Elt F)),
    unary main_v61 main_v62 (broadcastInDim S16384x1024 ![0, 1] bcast_S16384x1_S16384x1024_0_1 : (⟨S16384x1, .f32⟩ : BufTy).Contents (Elt F) → (⟨S16384x1024, .f32⟩ : BufTy).Contents (Elt F)),
    binary main_v58 main_v62 main_v63 (mulf : (⟨S16384x1024, .f32⟩ : BufTy).Contents (Elt F) → (⟨S16384x1024, .f32⟩ : BufTy).Contents (Elt F) → (⟨S16384x1024, .f32⟩ : BufTy).Contents (Elt F)),
    unary main_arg5 main_v64 (broadcastInDim S1x1024 ![1] bcast_S1024_S1x1024_1 : (⟨S1024, .f32⟩ : BufTy).Contents (Elt F) → (⟨S1x1024, .f32⟩ : BufTy).Contents (Elt F)),
    unary main_v64 main_v65 (broadcastInDim S16384x1024 ![0, 1] bcast_S1x1024_S16384x1024_0_1 : (⟨S1x1024, .f32⟩ : BufTy).Contents (Elt F) → (⟨S16384x1024, .f32⟩ : BufTy).Contents (Elt F)),
    binary main_v63 main_v65 main_v66 (mulf : (⟨S16384x1024, .f32⟩ : BufTy).Contents (Elt F) → (⟨S16384x1024, .f32⟩ : BufTy).Contents (Elt F) → (⟨S16384x1024, .f32⟩ : BufTy).Contents (Elt F)),
    unary main_arg6 main_v67 (broadcastInDim S1x1024 ![1] bcast_S1024_S1x1024_1 : (⟨S1024, .f32⟩ : BufTy).Contents (Elt F) → (⟨S1x1024, .f32⟩ : BufTy).Contents (Elt F)),
    unary main_v67 main_v68 (broadcastInDim S16384x1024 ![0, 1] bcast_S1x1024_S16384x1024_0_1 : (⟨S1x1024, .f32⟩ : BufTy).Contents (Elt F) → (⟨S16384x1024, .f32⟩ : BufTy).Contents (Elt F)),
    binary main_v66 main_v68 main_v69 (addf : (⟨S16384x1024, .f32⟩ : BufTy).Contents (Elt F) → (⟨S16384x1024, .f32⟩ : BufTy).Contents (Elt F) → (⟨S16384x1024, .f32⟩ : BufTy).Contents (Elt F)),
    unary main_v69 main_v70 (Host.negf : (⟨S16384x1024, .f32⟩ : BufTy).Contents (Elt F) → (⟨S16384x1024, .f32⟩ : BufTy).Contents (Elt F)),
    unary main_v70 main_v71 (Host.exp : (⟨S16384x1024, .f32⟩ : BufTy).Contents (Elt F) → (⟨S16384x1024, .f32⟩ : BufTy).Contents (Elt F)),
    nullary main_cst_12 (constant S_ .f32 0x3F800000#32),
    unary main_cst_12 main_v72 (broadcastInDim S16384x1024 ![] bcast_S_S16384x1024 : (⟨S_, .f32⟩ : BufTy).Contents (Elt F) → (⟨S16384x1024, .f32⟩ : BufTy).Contents (Elt F)),
    binary main_v72 main_v71 main_v73 (addf : (⟨S16384x1024, .f32⟩ : BufTy).Contents (Elt F) → (⟨S16384x1024, .f32⟩ : BufTy).Contents (Elt F) → (⟨S16384x1024, .f32⟩ : BufTy).Contents (Elt F)),
    nullary main_cst_13 (constant S_ .f32 0x3F800000#32),
    unary main_cst_13 main_v74 (broadcastInDim S16384x1024 ![] bcast_S_S16384x1024 : (⟨S_, .f32⟩ : BufTy).Contents (Elt F) → (⟨S16384x1024, .f32⟩ : BufTy).Contents (Elt F)),
    binary main_v74 main_v73 main_v75 (Host.divf : (⟨S16384x1024, .f32⟩ : BufTy).Contents (Elt F) → (⟨S16384x1024, .f32⟩ : BufTy).Contents (Elt F) → (⟨S16384x1024, .f32⟩ : BufTy).Contents (Elt F)),
    unary main_v51 main_v76 (Host.tanh : (⟨S16384x1024, .f32⟩ : BufTy).Contents (Elt F) → (⟨S16384x1024, .f32⟩ : BufTy).Contents (Elt F)),
    binary main_v75 main_v76 main_v77 (mulf : (⟨S16384x1024, .f32⟩ : BufTy).Contents (Elt F) → (⟨S16384x1024, .f32⟩ : BufTy).Contents (Elt F) → (⟨S16384x1024, .f32⟩ : BufTy).Contents (Elt F)) ]

/-- Every operation of the list touches TensorCore buffers only. -/
theorem ops_sub : (ops : List (HloOp τ sig (Elt F))).Forall fun op => op.bufs ⊆ tcRefs τ sig :=
  ⟨binary_bufs_sub .., binary_bufs_sub .., unary_bufs_sub .., unary_bufs_sub .., binary_bufs_sub .., unary_bufs_sub ..,
    unary_bufs_sub .., unary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., unary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., binary_bufs_sub .., unary_bufs_sub .., unary_bufs_sub ..,
    binary_bufs_sub .., nullary_bufs_sub .., unary_bufs_sub .., binary_bufs_sub .., unary_bufs_sub .., unary_bufs_sub ..,
    binary_bufs_sub .., binary_bufs_sub .., binary_bufs_sub .., nullary_bufs_sub .., unary_bufs_sub .., binary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., binary_bufs_sub ..⟩

end Cert.ReferenceIdeal.RefRun

end
-- ==== Proof.RefRun.lean ====
/-
  The reference program's run read back: every weakly fair execution of its main function terminates, and leaves in
  its two result buffers the new hidden state and the new cell state as the terms of RefTerm over the argument arrays
  as launched, the arguments unchanged. The list of the program's 116 host operations (93 of the main function and, at
  its one call, the row variance routine's 20 and the nested selection routine's 3) is the table of RefOps.lean; here:
  that the main function is that list run in order, what the fold of the list leaves in each buffer of interest, and
  the run.
-/
import proofs.«178596_j82867099009371_1_alg».proof.Proof.Gen.ReferenceIdeal
import proofs.«178596_j82867099009371_1_alg».proof.Proof.RefTerm
import proofs.«178596_j82867099009371_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 4000000 in
/-- The main function is that straight line: its two windows, the routines' definitions unfolded at their calls and
    the call records at their fields, are one chain of steps once sequencing is reassociated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
set_option maxHeartbeats 4000000 in
/-- The fold at the first result buffer is the new hidden state's term: each operation's result read at its own
    buffer is its function of its operands' contents, at any other buffer what was there; what is left is the same
    tree of host operations on both sides. -/
theorem hnew_eq (V : Valuation τ sig (Elt F)) :
    after ops V (main_v77 : DevRef τ sig)
      = RefTerm.hnew (RefTerm.gates (V (main_arg0 : DevRef τ sig)) (V (main_arg1 : DevRef τ sig)) (V (main_arg3 : DevRef τ sig)) (V (main_arg4 : DevRef τ sig)))
          (V (main_arg2 : DevRef τ sig)) (V (main_arg5 : DevRef τ sig)) (V (main_arg6 : DevRef τ sig)) (V (main_arg7 : DevRef τ sig)) := by
  after_results_simp
  rfl

set_option maxRecDepth 100000 in
set_option maxHeartbeats 4000000 in
/-- The fold at the second result buffer is the new cell state's term. -/
theorem cnew_eq (V : Valuation τ sig (Elt F)) :
    after ops V (main_v51 : DevRef τ sig)
      = RefTerm.cnew (RefTerm.gates (V (main_arg0 : DevRef τ sig)) (V (main_arg1 : DevRef τ sig)) (V (main_arg3 : DevRef τ sig)) (V (main_arg4 : DevRef τ sig)))
          (V (main_arg2 : DevRef τ sig)) (V (main_arg7 : DevRef τ sig)) := by
  after_results_simp
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
          = RefTerm.hnew (RefTerm.gates (m ((c.tc : Thread nD τ).loc main_arg0)) (m ((c.tc : Thread nD τ).loc main_arg1))
              (m ((c.tc : Thread nD τ).loc main_arg3)) (m ((c.tc : Thread nD τ).loc main_arg4)))
              (m ((c.tc : Thread nD τ).loc main_arg2)) (m ((c.tc : Thread nD τ).loc main_arg5))
              (m ((c.tc : Thread nD τ).loc main_arg6)) (m ((c.tc : Thread nD τ).loc main_arg7))
      ∧ r.2.mem ((c.tc : Thread nD τ).loc main_v51)
          = RefTerm.cnew (RefTerm.gates (m ((c.tc : Thread nD τ).loc main_arg0)) (m ((c.tc : Thread nD τ).loc main_arg1))
              (m ((c.tc : Thread nD τ).loc main_arg3)) (m ((c.tc : Thread nD τ).loc main_arg4)))
              (m ((c.tc : Thread nD τ).loc main_arg2)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v77).trans (hnew_eq _), (h c main_v51).trans (cnew_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.RefRun

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.RefRead.lean ====
/-
  The reference's two result terms, read at row r and column q over the extended reals, are the cell's new hidden
  state and new cell state of that row.
  • The two inputs set side by side, times the weight: entry (r, j) is the sum over 2048 shared indices, which splits
    into the first 1024 (the input row against the weight's upper rows) and the last 1024 (the previous hidden row
    against the lower rows).
  • 1 / (1 + exp(−z)) is the logistic function, the literal one being the number one.
  • A row sum started from the literal zero is the row's sum; the library routine's divisor 1024 − 0 is 1024, which is
    positive, so its guard selects the quotient.
-/
import proofs.«178596_j82867099009371_1_alg».proof.Proof.RefTerm
import proofs.«178596_j82867099009371_1_alg».proof.Proof.Spec
import proofs.«178596_j82867099009371_1_alg».proof.Proof.LibDot
import proofs.«178596_j82867099009371_1_alg».proof.Proof.LibRowRead
import Idealize.ShloMosaic.Lib.IdealHost
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx
open Cert.ReferenceIdeal.RefTerm

/-! ## Literals -/

/-- The word 0x44800000 denotes 1024. -/
theorem width_eq : Cert.Cell.width = ((1024 : ℝ) : EReal) := by
  show Ideal.ofBits .f32 0x44800000#32 = _
  simp [Ideal.ofBits, Ideal.ieee, -EReal.coe_mul]; norm_num

/-- The routine's divisor 1024 − 0 is 1024. -/
theorem denom_eq : denom (F := Ideal) ix0 = Cert.Cell.width := by
  show Ideal.ofBits .f32 0x44800000#32 - (((0#32 : BitVec 32).toInt : ℝ) : EReal) = _
  have h0 : ((0#32 : BitVec 32).toInt : ℝ) = 0 := by simp
  rw [h0, EReal.coe_zero, sub_zero]

/-- 1024 is positive, so the routine's guard is set. -/
theorem guard_eq : Ideal.cmp .ogt (denom (F := Ideal) ix0) (Ideal.ofBits .f32 0x00000000#32) = 1#1 := by
  rw [denom_eq, width_eq, Ideal.ofBits_zero_f32]
  unfold Ideal.cmp
  have : (0 : EReal) < ((1024 : ℝ) : EReal) := by exact_mod_cast (by norm_num : (0 : ℝ) < 1024)
  simp [this]

/-! ## Ones, the logistic function, the spreads -/

theorem ones_at (i : S16384x1024.Idx) : ones (F := Ideal) i = 1 := by
  show Ideal.ofBits .f32 0x3F800000#32 = 1
  exact Ideal.ofBits_one_f32

theorem sigm_at (z : FVec Ideal S16384x1024 .f32) (i : S16384x1024.Idx) : sigm z i = Ideal.logistic (z i) := by
  show Ideal.div (ones (F := Ideal) i) (ones (F := Ideal) i + Ideal.exp (-(z i))) = _
  rw [ones_at]; rfl

theorem rowBcast_at (v : FVec Ideal S1024 .f32) (r : Fin 16384) (q : Fin 1024) : rowBcast v (ix2 r q) = v (ix1 q) :=
  Cert.LibRowRead.bcast_perCol_apply bcast_S1024_S1x1024_1 bcast_S1x1024_S16384x1024_0_1 v r q

theorem spread_at (v : FVec Ideal S16384x1 .f32) (r : Fin 16384) (q : Fin 1024) : spread v (ix2 r q) = v (ix2 r (0 : Fin 1)) :=
  Cert.LibRowRead.bcast_alongRows_apply bcast_S16384x1_S16384x1024_0_1 v r q

/-! ## The pre-activations -/

/-- The two inputs side by side, at a column of the first half: the input. -/
theorem cat_lo (x h : FVec Ideal S16384x1024 .f32) (r : Fin 16384) (k : Fin 1024) :
    concatenate S16384x2048 1 [⟨S16384x1024, x⟩, ⟨S16384x1024, h⟩] concatenates_S16384x1024_S16384x1024_S16384x2048_d1
        (ix2 r (Cert.Cell.lo k)) = x (ix2 r k) := by
  refine concatenate_pair_apply_left (1 : Fin 2) x h concatenates_S16384x1024_S16384x1024_S16384x2048_d1
    (ix2 r (Cert.Cell.lo k)) rfl (ix2 r k) fun b => ?_
  match b with
  | ⟨0, _⟩ => rfl
  | ⟨1, _⟩ => rfl

/-- The two inputs side by side, at a column of the second half: the previous hidden state. -/
theorem cat_hi (x h : FVec Ideal S16384x1024 .f32) (r : Fin 16384) (k : Fin 1024) :
    concatenate S16384x2048 1 [⟨S16384x1024, x⟩, ⟨S16384x1024, h⟩] concatenates_S16384x1024_S16384x1024_S16384x2048_d1
        (ix2 r (Cert.Cell.hi k)) = h (ix2 r k) := by
  refine concatenate_pair_apply_right (1 : Fin 2) x h concatenates_S16384x1024_S16384x1024_S16384x2048_d1
    (ix2 r (Cert.Cell.hi k)) rfl rfl (ix2 r k) ?_ ?_
  · intro b hb
    match b, hb with
    | ⟨0, _⟩, _ => rfl
    | ⟨1, _⟩, hb => exact absurd rfl hb
  · show k.val + 1024 = k.val + 1024
    rfl

/-- The fused pre-activations at (r, j) are row r's. -/
theorem gates_at (x h : FVec Ideal S16384x1024 .f32) (W : FVec Ideal S2048x5120 .f32) (b : FVec Ideal S5120 .f32)
    (r : Fin 16384) (j : Fin 5120) : gates x h W b (ix2 r j) = Cert.Cell.gateOf x h W b r j := by
  unfold gates
  rw [addf_apply]
  refine (congrArg₂ (· + ·)
    (Cert.LibDot.dotGeneral_at dot_S16384x2048_S2048x5120_S16384x5120_1_0_0_1_n_n rfl rfl rfl rfl rfl rfl none .single _ W r j)
    (Cert.LibRowRead.bcast_perCol_apply bcast_S5120_S1x5120_1 bcast_S1x5120_S16384x5120_0_1 b r j)).trans ?_
  rw [Cert.Cell.sum_split]
  simp only [cat_lo, cat_hi]
  rfl

/-- The five column groups at (r, q). -/
theorem grpF_at (g : FVec Ideal S16384x5120 .f32) (r : Fin 16384) (q : Fin 1024) : grpF g (ix2 r q) = g (ix2 r (Cert.Cell.colF q)) := by
  unfold grpF
  refine extractStridedSlice_apply ![0, 0] g slices_S16384x5120_S16384x1024_0_0 (ix2 r q) (ix2 r (Cert.Cell.colF q)) fun a => ?_
  ·
    match a with
    | ⟨0, _⟩ => show r.val = 0 + r.val; omega
    | ⟨1, _⟩ => show q.val = 0 + q.val; omega
theorem grpI_at (g : FVec Ideal S16384x5120 .f32) (r : Fin 16384) (q : Fin 1024) : grpI g (ix2 r q) = g (ix2 r (Cert.Cell.colI q)) := by
  unfold grpI
  refine extractStridedSlice_apply ![0, 1024] g slices_S16384x5120_S16384x1024_0_1024 (ix2 r q) (ix2 r (Cert.Cell.colI q)) fun a => ?_
  ·
    match a with
    | ⟨0, _⟩ => show r.val = 0 + r.val; omega
    | ⟨1, _⟩ => show q.val + 1024 = 1024 + q.val; omega
theorem grpO_at (g : FVec Ideal S16384x5120 .f32) (r : Fin 16384) (q : Fin 1024) : grpO g (ix2 r q) = g (ix2 r (Cert.Cell.colO q)) := by
  unfold grpO
  refine extractStridedSlice_apply ![0, 2048] g slices_S16384x5120_S16384x1024_0_2048 (ix2 r q) (ix2 r (Cert.Cell.colO q)) fun a => ?_
  ·
    match a with
    | ⟨0, _⟩ => show r.val = 0 + r.val; omega
    | ⟨1, _⟩ => show q.val + 2048 = 2048 + q.val; omega
theorem grpC_at (g : FVec Ideal S16384x5120 .f32) (r : Fin 16384) (q : Fin 1024) : grpC g (ix2 r q) = g (ix2 r (Cert.Cell.colC q)) := by
  unfold grpC
  refine extractStridedSlice_apply ![0, 3072] g slices_S16384x5120_S16384x1024_0_3072 (ix2 r q) (ix2 r (Cert.Cell.colC q)) fun a => ?_
  ·
    match a with
    | ⟨0, _⟩ => show r.val = 0 + r.val; omega
    | ⟨1, _⟩ => show q.val + 3072 = 3072 + q.val; omega
theorem grpM_at (g : FVec Ideal S16384x5120 .f32) (r : Fin 16384) (q : Fin 1024) : grpM g (ix2 r q) = g (ix2 r (Cert.Cell.colM q)) := by
  unfold grpM
  refine extractStridedSlice_apply ![0, 4096] g slices_S16384x5120_S16384x1024_0_4096 (ix2 r q) (ix2 r (Cert.Cell.colM q)) fun a => ?_
  ·
    match a with
    | ⟨0, _⟩ => show r.val = 0 + r.val; omega
    | ⟨1, _⟩ => show q.val + 4096 = 4096 + q.val; omega

/-! ## Row sums, the mean, the mean squared deviation -/

theorem reduces_rows : S16384x1024.Reduces [1] S16384 := by decide

/-- The per-row sum column at row r: the row's sum. -/
theorem rowSum_at (o : FVec Ideal S16384x1024 .f32) (r : Fin 16384) (z : Fin 1) :
    rowSum o (ix2 r z) = ∑ q : Fin 1024, o (ix2 r q) := by
  unfold rowSum
  have hz : z = 0 := Subsingleton.elim _ _
  subst hz
  rw [Cert.LibRowRead.bcast_column_apply bcast_S16384_S16384x1_0 _ r 0,
    Cert.LibRowRead.hostReduceAdd_row o _ reducesTo_S16384x1024_S16384_d1 reduces_rows h_S_ r]
  show Ideal.ofBits .f32 0x00000000#32 + _ = _
  rw [Ideal.ofBits_zero_f32, zero_add]

/-- The per-row mean column at row r: the row's mean. -/
theorem colMean_at (o : FVec Ideal S16384x1024 .f32) (r : Fin 16384) (z : Fin 1) :
    colMean o (ix2 r z) = Cert.Cell.rowMean fun q => o (ix2 r q) := by
  unfold colMean
  rw [hostDivf_apply, rowSum_at, broadcastInDim_scalar_apply]
  rfl

/-- The per-row mean squared deviation column at row r. -/
theorem colVar_at (o : FVec Ideal S16384x1024 .f32) (r : Fin 16384) (z : Fin 1) :
    colVar o (ix2 r z) = Cert.Cell.rowVar fun q => o (ix2 r q) := by
  unfold colVar
  rw [select_apply, broadcastInDim_scalar_apply, cmpf_apply]
  have hg : FloatOps.cmpf .ogt (denom (F := Ideal) ix0) (constant (F := Ideal) S_ .f32 0x00000000#32 ix0) = 1#1 := guard_eq
  rw [hg]
  unfold Scalar.select
  rw [if_pos (show (1#1 : BitVec 1) = 1 from rfl), hostDivf_apply, rowSum_at, broadcastInDim_scalar_apply, denom_eq]
  unfold Cert.Cell.rowVar
  refine congrArg (fun s => Ideal.div s Cert.Cell.width) (Finset.sum_congr rfl fun q _ => ?_)
  rw [mulf_apply, subf_apply, spread_at, colMean_at]

/-! ## The two results -/

theorem tanh_at (z : FVec Ideal S16384x1024 .f32) (i : S16384x1024.Idx) : Host.tanh z i = Ideal.tanh (z i) := rfl

theorem rsqrt_at (z : FVec Ideal S16384x1 .f32) (i : S16384x1.Idx) : Host.rsqrt z i = Ideal.rsqrt (z i) := rfl

theorem one_eq : Cert.Cell.one = 1 := Ideal.ofBits_one_f32

theorem vecOne_at (j : S1024.Idx) :
    broadcastInDim S1024 ![] bcast_S_S1024 (constant (F := Ideal) S_ .f32 0x3F800000#32) j = 1 := by
  rw [broadcastInDim_scalar_apply]
  exact Ideal.ofBits_one_f32

/-- The new cell state at (r, q). -/
theorem cnew_at (x h c : FVec Ideal S16384x1024 .f32) (W : FVec Ideal S2048x5120 .f32) (b : FVec Ideal S5120 .f32)
    (ret : FVec Ideal S1024 .f32) (r : Fin 16384) (q : Fin 1024) :
    cnew (gates x h W b) c ret (ix2 r q)
      = Cert.Cell.cNew (Cert.Cell.gateOf x h W b r) (fun q => c (ix2 r q)) (fun q => ret (ix1 q)) q := by
  unfold cnew Cert.Cell.cNew
  simp only [addf_apply, mulf_apply, subf_apply, sigm_at, tanh_at, grpF_at, grpI_at, grpC_at, grpM_at, gates_at, rowBcast_at,
    ones_at, one_eq]
  rw [vecOne_at]

/-- The new hidden state at (r, q). -/
theorem hnew_at (x h c : FVec Ideal S16384x1024 .f32) (W : FVec Ideal S2048x5120 .f32) (b : FVec Ideal S5120 .f32)
    (gam bet ret : FVec Ideal S1024 .f32) (r : Fin 16384) (q : Fin 1024) :
    hnew (gates x h W b) c gam bet ret (ix2 r q)
      = Cert.Cell.hNew (Cert.Cell.gateOf x h W b r) (fun q => c (ix2 r q)) (fun q => ret (ix1 q)) (fun q => gam (ix1 q))
          (fun q => bet (ix1 q)) q := by
  unfold hnew Cert.Cell.hNew
  rw [mulf_apply, sigm_at, addf_apply, mulf_apply, mulf_apply, subf_apply, sigm_at, grpO_at, gates_at, spread_at, colMean_at,
    spread_at, rowBcast_at, rowBcast_at]
  have ho : (fun q' => sigm (grpO (gates x h W b)) (ix2 r q')) = Cert.Cell.oGate (Cert.Cell.gateOf x h W b r) :=
    funext fun q' => by rw [sigm_at, grpO_at, gates_at]; rfl
  have hr : Host.rsqrt (addf (colVar (sigm (grpO (gates x h W b))))
        (broadcastInDim S16384x1 ![] bcast_S_S16384x1 (constant S_ .f32 0x3727C5AC#32))) (ix2 r (0 : Fin 1))
      = Ideal.rsqrt (Cert.Cell.rowVar (Cert.Cell.oGate (Cert.Cell.gateOf x h W b r)) + Cert.Cell.eps) := by
    rw [rsqrt_at, addf_apply, colVar_at, broadcastInDim_scalar_apply, ho]
    rfl
  have ht : Host.tanh (cnew (gates x h W b) c ret) (ix2 r q)
      = Ideal.tanh (Cert.Cell.cNew (Cert.Cell.gateOf x h W b r) (fun q => c (ix2 r q)) (fun q => ret (ix1 q)) q) := by
    rw [tanh_at, cnew_at]
  rw [hr, ht, ho]
  rfl

/-- The new cell state, the whole array. -/
theorem cnew_eq (x h c : FVec Ideal S16384x1024 .f32) (W : FVec Ideal S2048x5120 .f32) (b : FVec Ideal S5120 .f32)
    (ret : FVec Ideal S1024 .f32) : cnew (gates x h W b) c ret = Cert.Cell.cOut x h c W b ret := by
  funext i
  obtain ⟨r, q, rfl⟩ : ∃ (r : Fin 16384) (q : Fin 1024), i = ix2 r q := ⟨i 0, i 1, eq_ix2 i⟩
  rw [cnew_at, Cert.Cell.cOut_at]

/-- The new hidden state, the whole array. -/
theorem hnew_eq (x h c : FVec Ideal S16384x1024 .f32) (W : FVec Ideal S2048x5120 .f32) (b : FVec Ideal S5120 .f32)
    (gam bet ret : FVec Ideal S1024 .f32) : hnew (gates x h W b) c gam bet ret = Cert.Cell.hOut x h c W b gam bet ret := by
  funext i
  obtain ⟨r, q, rfl⟩ : ∃ (r : Fin 16384) (q : Fin 1024), i = ix2 r q := ⟨i 0, i 1, eq_ix2 i⟩
  rw [hnew_at, Cert.Cell.hOut_at]

end Cert.ReferenceIdeal.RefRead

end
-- ==== Proof.lean ====
/-
  The certificate's claims assembled.

  The kernel computes, 128 batch rows per grid point, the recurrent cell of Proof/Spec.lean: its pre-activations are
  the input block times the weight's upper half plus the previous hidden block times the lower half plus the bias,
  where the reference multiplies the two inputs set side by side by the whole weight — one sum over 2048 shared
  indices against the sum of its two halves, equal in the extended reals because addition there is commutative and
  associative. Every other operation is the same on both sides: the logistic function (one operation in the kernel,
  1 / (1 + exp(−z)) on the host), tanh, the row mean and mean squared deviation with divisor 1024, the reciprocal
  square root, and the products and sums of the cell update. So after both runs each result array is the same
  function of the arguments (Proof/KernelArray.lean for the kernel, Proof/RefRun.lean with Proof/RefRead.lean for the
  reference), and the arguments are unchanged. The precondition is not used.
-/
import proofs.«178596_j82867099009371_1_alg».proof.Defs
import proofs.«178596_j82867099009371_1_alg».proof.Proof.Gen.Kernel
import proofs.«178596_j82867099009371_1_alg».proof.Proof.Gen.Kernel.Skeleton
import proofs.«178596_j82867099009371_1_alg».proof.Proof.Gen.Kernel.Launch
import proofs.«178596_j82867099009371_1_alg».proof.Proof.Gen.Kernel.Points
import proofs.«178596_j82867099009371_1_alg».proof.Proof.Gen.Kernel.Frame
import proofs.«178596_j82867099009371_1_alg».proof.Proof.Gen.KernelIdeal
import proofs.«178596_j82867099009371_1_alg».proof.Proof.Gen.KernelIdeal.Skeleton
import proofs.«178596_j82867099009371_1_alg».proof.Proof.Gen.KernelIdeal.Launch
import proofs.«178596_j82867099009371_1_alg».proof.Proof.Gen.KernelIdeal.Points
import proofs.«178596_j82867099009371_1_alg».proof.Proof.Gen.KernelIdeal.Frame
import proofs.«178596_j82867099009371_1_alg».proof.Proof.Gen.KernelIdeal.Value
import proofs.«178596_j82867099009371_1_alg».proof.Proof.Gen.ReferenceIdeal
import proofs.«178596_j82867099009371_1_alg».proof.Proof.Gen.Pre_finite_inputs
import proofs.«178596_j82867099009371_1_alg».proof.Proof.KernelArray
import proofs.«178596_j82867099009371_1_alg».proof.Proof.RefRun
import proofs.«178596_j82867099009371_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.RefRun.run (F := Ideal) m ρ)

/-- Both programs end with the cell's new hidden state and new cell state of the (agreeing) arguments. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨h0, h1, h2, h3, h4, h5, h6, h7⟩ := hagree c
    rw [Cert.ReferenceIdeal.RefRead.hnew_eq, h0, h1, h2, h3, h4, h5, h6, h7]
  · obtain ⟨h0, h1, h2, h3, h4, _, _, h7⟩ := hagree c
    rw [Cert.ReferenceIdeal.RefRead.cnew_eq, h0, h1, h2, h3, h4, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
